-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x12x256 : Shape := ⟨3, ![8192, 12, 256]⟩
abbrev S12x12 : Shape := ⟨2, ![12, 12]⟩
abbrev S8192x1x12 : Shape := ⟨3, ![8192, 1, 12]⟩
abbrev S256x256 : Shape := ⟨2, ![256, 256]⟩
abbrev S256 : Shape := ⟨1, ![256]⟩
abbrev S_ : Shape := ⟨0, ![]⟩

class Facts : Prop where
  bcast_S_S8192x12x256 : S_.BroadcastsInDim S8192x12x256 (![] : Fin 0 → Fin S8192x12x256.rank)
  reducesTo_S8192x12x256_S_d0_1_2 : S8192x12x256.ReducesTo [0, 1, 2] S_
  h_S_ : 0 < S_.numel
  bcast_S_S12x12 : S_.BroadcastsInDim S12x12 (![] : Fin 0 → Fin S12x12.rank)
  reducesTo_S12x12_S_d0_1 : S12x12.ReducesTo [0, 1] S_
  bcast_S_S8192x1x12 : S_.BroadcastsInDim S8192x1x12 (![] : Fin 0 → Fin S8192x1x12.rank)
  reducesTo_S8192x1x12_S_d0_1_2 : S8192x1x12.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x256 .f32) (main_arg10 : FVec F S256 .f32) (main_arg11 : FVec F S256x256 .f32) (main_arg12 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x12x256 .f32) (main_arg1 : FVec F S12x12 .f32) (main_arg2 : FVec F S8192x1x12 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S8192x12x256 .f32 := Host.absf main_arg0
  let main_cst : FVec F S_ .f32 := constant S_ .f32 0x7F800000#32
  let main_v1 : FVec F S8192x12x256 .f32 := broadcastInDim S8192x12x256 ![] bcast_S_S8192x12x256 main_cst
  let main_v2 : IVec S8192x12x256 1 := cmpf .olt main_v0 main_v1
  let main_c : IVec S_ 1 := constantI S_ 1 1#1
  let main_v3 : IVec S_ 1 := (fun x v => Host.reduce IntOp.andi x v reducesTo_S8192x12x256_S_d0_1_2 h_S_) main_v2 main_c
  let main_v4 : FVec F S12x12 .f32 := Host.absf main_arg1
  let main_cst_0 : FVec F S_ .f32 := constant S_ .f32 0x7F800000#32
  let main_v5 : FVec F S12x12 .f32 := broadcastInDim S12x12 ![] bcast_S_S12x12 main_cst_0
  let main_v6 : IVec S12x12 1 := cmpf .olt main_v4 main_v5
  let main_c_1 : IVec S_ 1 := constantI S_ 1 1#1
  let main_v7 : IVec S_ 1 := (fun x v => Host.reduce IntOp.andi x v reducesTo_S12x12_S_d0_1 h_S_) main_v6 main_c_1
  let main_v8 : IVec S_ 1 := andi main_v3 main_v7
  let main_v9 : FVec F S8192x1x12 .f32 := Host.absf main_arg2
  let main_cst_2 : FVec F S_ .f32 := constant S_ .f32 0x7F800000#32
  let main_v10 : FVec F S8192x1x12 .f32 := broadcastInDim S8192x1x12 ![] bcast_S_S8192x1x12 main_cst_2
  let main_v11 : IVec S8192x1x12 1 := cmpf .olt main_v9 main_v10
  let main_c_3 : IVec S_ 1 := constantI S_ 1 1#1
  let main_v12 : IVec S_ 1 := (fun x v => Host.reduce IntOp.andi x v reducesTo_S8192x1x12_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S8192x12x256 : Shape := ⟨3, ![8192, 12, 256]⟩
abbrev S12x12 : Shape := ⟨2, ![12, 12]⟩
abbrev S8192x1x12 : Shape := ⟨3, ![8192, 1, 12]⟩
abbrev S256x256 : Shape := ⟨2, ![256, 256]⟩
abbrev S256 : Shape := ⟨1, ![256]⟩
abbrev S4 : Shape := ⟨1, ![4]⟩
abbrev S_ : Shape := ⟨0, ![]⟩
abbrev S4x1 : Shape := ⟨2, ![4, 1]⟩
abbrev S4x12 : Shape := ⟨2, ![4, 12]⟩
abbrev S8192x12 : Shape := ⟨2, ![8192, 12]⟩
abbrev S8192x4x256 : Shape := ⟨3, ![8192, 4, 256]⟩
abbrev S256x12x256 : Shape := ⟨3, ![256, 12, 256]⟩
abbrev S256x12 : Shape := ⟨2, ![256, 12]⟩
abbrev S256x4x256 : Shape := ⟨3, ![256, 4, 256]⟩
abbrev S3072x256 : Shape := ⟨2, ![3072, 256]⟩
abbrev S256x1x256 : Shape := ⟨3, ![256, 1, 256]⟩
abbrev S1024x256 : Shape := ⟨2, ![1024, 256]⟩
abbrev S1x256 : Shape := ⟨2, ![1, 256]⟩
abbrev S256x4x12 : Shape := ⟨3, ![256, 4, 12]⟩
abbrev S1x4x12 : Shape := ⟨3, ![1, 4, 12]⟩
abbrev S256x4 : Shape := ⟨2, ![256, 4]⟩
abbrev S256x4x1 : Shape := ⟨3, ![256, 4, 1]⟩
abbrev S256x1x12 : Shape := ⟨3, ![256, 1, 12]⟩

abbrev nBuf : Space → Nat
  | .hbm => 28
  | .vmem => 17
  | .smem => 0
  | _ => 0

abbrev bufTy : (tb : Table) → Fin (tcTables nBuf tb) → BufTy
  | .hbm, ⟨0, _⟩ => ⟨S8192x12x256, .f32⟩
  | .hbm, ⟨1, _⟩ => ⟨S12x12, .f32⟩
  | .hbm, ⟨2, _⟩ => ⟨S8192x1x12, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S4, .i32⟩
  | .hbm, ⟨14, _⟩ => ⟨S4, .i1⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4, .i32⟩
  | .hbm, ⟨19, _⟩ => ⟨S4x1, .i32⟩
  | .hbm, ⟨20, _⟩ => ⟨S4x12, .f32⟩
  | .hbm, ⟨21, _⟩ => ⟨S8192x12, .f32⟩
  | .hbm, ⟨22, _⟩ => ⟨S256x256, .bf16⟩
  | .hbm, ⟨23, _⟩ => ⟨S256x256, .bf16⟩
  | .hbm, ⟨24, _⟩ => ⟨S256x256, .bf16⟩
  | .hbm, ⟨25, _⟩ => ⟨S256x256, .bf16⟩
  | .hbm, ⟨26, _⟩ => ⟨S256x256, .bf16⟩
  | .hbm, ⟨27, _⟩ => ⟨S8192x4x256, .f32⟩
  | .local _ .vmem, ⟨0, _⟩ => ⟨S256x12x256, .f32⟩
  | .local _ .vmem, ⟨1, _⟩ => ⟨S256x12x256, .f32⟩
  | .local _ .vmem, ⟨2, _⟩ => ⟨S4x12, .f32⟩
  | .local _ .vmem, ⟨3, _⟩ => ⟨S256x12, .f32⟩
  | .local _ .vmem, ⟨4, _⟩ => ⟨S256x12, .f32⟩
  | .local _ .vmem, ⟨5, _⟩ => ⟨S256x256, .bf16⟩
  | .local _ .vmem, ⟨6, _⟩ => ⟨S256, .f32⟩
  | .local _ .vmem, ⟨7, _⟩ => ⟨S256x256, .bf16⟩
  | .local _ .vmem, ⟨8, _⟩ => ⟨S256, .f32⟩
  | .local _ .vmem, ⟨9, _⟩ => ⟨S256x256, .bf16⟩
  | .local _ .vmem, ⟨10, _⟩ => ⟨S256, .f32⟩
  | .local _ .vmem, ⟨11, _⟩ => ⟨S256x256, .bf16⟩
  | .local _ .vmem, ⟨12, _⟩ => ⟨S256, .f32⟩
  | .local _ .vmem, ⟨13, _⟩ => ⟨S256x256, .bf16⟩
  | .local _ .vmem, ⟨14, _⟩ => ⟨S256, .f32⟩
  | .local _ .vmem, ⟨15, _⟩ => ⟨S256x4x256, .f32⟩
  | .local _ .vmem, ⟨16, _⟩ => ⟨S256x4x256, .f32⟩
  | _, _ => ⟨S8192x12x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x12x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x4x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S4 : S_.BroadcastsInDim S4 (![] : Fin 0 → Fin S4.rank)
  bcast_S4_S4x1_0 : S4.BroadcastsInDim S4x1 (![0] : Fin 1 → Fin S4x1.rank)
  shapeCasts_S8192x1x12_S8192x12 : S8192x1x12.ShapeCasts S8192x12
  bitsLt_bf16_f32 : FTy.bits .bf16 < FTy.bits .f32
  inb_S256x12x256_S256x12x256_0_0_0 : ∀ a, (![0, 0, 0] : Fin 3 → Nat) a + S256x12x256.size a ≤ S256x12x256.size a
  h_S256x12x256 : 0 < S256x12x256.numel
  shapeCasts_S256x12x256_S3072x256 : S256x12x256.ShapeCasts S3072x256
  slices_S256x12x256_o0_0_0_S256x1x256 : S256x12x256.Slices ![0, 0, 0] S256x1x256
  slices_S256x12x256_o0_3_0_S256x1x256 : S256x12x256.Slices ![0, 3, 0] S256x1x256
  slices_S256x12x256_o0_6_0_S256x1x256 : S256x12x256.Slices ![0, 6, 0] S256x1x256
  slices_S256x12x256_o0_9_0_S256x1x256 : S256x12x256.Slices ![0, 9, 0] S256x1x256
  concatenates_S256x1x256_S256x1x256_S256x1x256_S256x1x256_S256x4x256_d1 : Shape.Concatenates [S256x1x256, S256x1x256, S256x1x256, S256x1x256] S256x4x256 1
  shapeCasts_S256x4x256_S1024x256 : S256x4x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S3072x256 : S1x256.Broadcasts S3072x256
  broadcasts_S1x256_S1024x256 : S1x256.Broadcasts S1024x256
  shapeCasts_S3072x256_S256x12x256 : S3072x256.ShapeCasts S256x12x256
  shapeCasts_S1024x256_S256x4x256 : S1024x256.ShapeCasts S256x4x256
  inb_S4x12_S4x12_0_0 : ∀ a, (![0, 0] : Fin 2 → Nat) a + S4x12.size a ≤ S4x12.size a
  h_S4x12 : 0 < S4x12.numel
  shapeCasts_S4x12_S4x12 : S4x12.ShapeCasts S4x12
  shapeCasts_S4x12_S1x4x12 : S4x12.ShapeCasts S1x4x12
  broadcasts_S1x4x12_S256x4x12 : S1x4x12.Broadcasts S256x4x12
  reduces_S256x4x12_S256x4 : S256x4x12.Reduces [2] S256x4
  shapeCasts_S256x4_S256x4x1 : S256x4.ShapeCasts S256x4x1
  broadcasts_S256x4x1_S256x4x12 : S256x4x1.Broadcasts S256x4x12
  inb_S256x12_S256x12_0_0 : ∀ a, (![0, 0] : Fin 2 → Nat) a + S256x12.size a ≤ S256x12.size a
  h_S256x12 : 0 < S256x12.numel
  shapeCasts_S256x12_S256x12 : S256x12.ShapeCasts S256x12
  shapeCasts_S256x12_S256x1x12 : S256x12.ShapeCasts S256x1x12
  broadcasts_S256x1x12_S256x4x12 : S256x1x12.Broadcasts S256x4x12
  slices_S256x4x12_o0_0_0_S256x4x1 : S256x4x12.Slices ![0, 0, 0] S256x4x1
  broadcasts_S256x4x1_S256x4x256 : S256x4x1.Broadcasts S256x4x256
  broadcasts_S256x1x256_S256x4x256 : S256x1x256.Broadcasts S256x4x256
  slices_S256x4x12_o0_0_1_S256x4x1 : S256x4x12.Slices ![0, 0, 1] S256x4x1
  slices_S256x12x256_o0_1_0_S256x1x256 : S256x12x256.Slices ![0, 1, 0] S256x1x256
  slices_S256x4x12_o0_0_2_S256x4x1 : S256x4x12.Slices ![0, 0, 2] S256x4x1
  slices_S256x12x256_o0_2_0_S256x1x256 : S256x12x256.Slices ![0, 2, 0] S256x1x256
  slices_S256x4x12_o0_0_3_S256x4x1 : S256x4x12.Slices ![0, 0, 3] S256x4x1
  slices_S256x4x12_o0_0_4_S256x4x1 : S256x4x12.Slices ![0, 0, 4] S256x4x1
  slices_S256x12x256_o0_4_0_S256x1x256 : S256x12x256.Slices ![0, 4, 0] S256x1x256
  slices_S256x4x12_o0_0_5_S256x4x1 : S256x4x12.Slices ![0, 0, 5] S256x4x1
  slices_S256x12x256_o0_5_0_S256x1x256 : S256x12x256.Slices ![0, 5, 0] S256x1x256
  slices_S256x4x12_o0_0_6_S256x4x1 : S256x4x12.Slices ![0, 0, 6] S256x4x1
  slices_S256x4x12_o0_0_7_S256x4x1 : S256x4x12.Slices ![0, 0, 7] S256x4x1
  slices_S256x12x256_o0_7_0_S256x1x256 : S256x12x256.Slices ![0, 7, 0] S256x1x256
  slices_S256x4x12_o0_0_8_S256x4x1 : S256x4x12.Slices ![0, 0, 8] S256x4x1
  slices_S256x12x256_o0_8_0_S256x1x256 : S256x12x256.Slices ![0, 8, 0] S256x1x256
  slices_S256x4x12_o0_0_9_S256x4x1 : S256x4x12.Slices ![0, 0, 9] S256x4x1
  slices_S256x4x12_o0_0_10_S256x4x1 : S256x4x12.Slices ![0, 0, 10] S256x4x1
  slices_S256x12x256_o0_10_0_S256x1x256 : S256x12x256.Slices ![0, 10, 0] S256x1x256
  slices_S256x4x12_o0_0_11_S256x4x1 : S256x4x12.Slices ![0, 0, 11] S256x4x1
  slices_S256x12x256_o0_11_0_S256x1x256 : S256x12x256.Slices ![0, 11, 0] S256x1x256
  inb_S256x4x256_S256x4x256_0_0_0 : ∀ a, (![0, 0, 0] : Fin 3 → Nat) a + S256x4x256.size a ≤ S256x4x256.size a
  h_S256x4x256 : 0 < S256x4x256.numel
  gather_S12x12_S4x1_S4x12_1_0_n_n_0_1_112_wf : GatherDims.WF S12x12 S4x1 S4x12 [1] [0] [] [0] [] 1 ![1, 12]
  dot_S3072x256_S256x256_S3072x256_1_1_0_0_n_n_wf : DotDims.WF S3072x256 S256x256 S3072x256 [1] [1] [0] [0] [] []
  dot_S1024x256_S256x256_S1024x256_1_1_0_0_n_n_wf : DotDims.WF S1024x256 S256x256 S1024x256 [1] [1] [0] [0] [] []
  dot_S256x4x256_S256x12x256_S256x4x12_2_2_1_1_0_0_wf : DotDims.WF S256x4x256 S256x12x256 S256x4x12 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x12x256.size a ≤ S8192x12x256.size a
  hwx0_0 : ∀ i : grid0.Coords, EltTy.bits .f32 = 32 ∨ (Rect.block (s := S8192x12x256) S256x12x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x12.size a ≤ S4x12.size a
  hwx0_1 : ∀ i : grid0.Coords, EltTy.bits .f32 = 32 ∨ (Rect.block (s := S4x12) S4x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x12.size a ≤ S8192x12.size a
  hwx0_2 : ∀ i : grid0.Coords, EltTy.bits .f32 = 32 ∨ (Rect.block (s := S8192x12) S256x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x4x256.size a ≤ S8192x4x256.size a
  hwx0_13 : ∀ i : grid0.Coords, EltTy.bits .f32 = 32 ∨ (Rect.block (s := S8192x4x256) S256x4x256.size (cc0_transform_13 i) (hinb0_13 i)).WholeWords (EltTy.packing .f32)

variable [Facts₀]

def gather_S12x12_S4x1_S4x12_1_0_n_n_0_1_112 : GatherDims S12x12 S4x1 S4x12 where
  offsetDims := [1]
  collapsedSliceDims := [0]
  operandBatchingDims := []
  startIndicesBatchingDims := []
  startIndexMap := [0]
  indexVectorDim := 1
  sliceSizes := ![1, 12]
  wf := gather_S12x12_S4x1_S4x12_1_0_n_n_0_1_112_wf
def dot_S3072x256_S256x256_S3072x256_1_1_0_0_n_n : DotDims S3072x256 S256x256 S3072x256 where
  lhsContracting := [1]
  rhsContracting := [1]
  lhsNonContracting := [0]
  rhsNonContracting := [0]
  lhsBatch := []
  rhsBatch := []
  wf := dot_S3072x256_S256x256_S3072x256_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S256x4x256_S256x12x256_S256x4x12_2_2_1_1_0_0 : DotDims S256x4x256 S256x12x256 S256x4x12 where
  lhsContracting := [2]
  rhsContracting := [2]
  lhsNonContracting := [1]
  rhsNonContracting := [1]
  lhsBatch := [0]
  rhsBatch := [0]
  wf := dot_S256x4x256_S256x12x256_S256x4x12_2_2_1_1_0_0_wf

abbrev win0_0 : Pipeline.Window sig grid0 :=
  Pipeline.Window.ofSpec (Memref.whole main_arg0) S256x12x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x12.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S256x4x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x12x256 : Shape := ⟨3, ![8192, 12, 256]⟩
abbrev S12x12 : Shape := ⟨2, ![12, 12]⟩
abbrev S8192x1x12 : Shape := ⟨3, ![8192, 1, 12]⟩
abbrev S256x256 : Shape := ⟨2, ![256, 256]⟩
abbrev S256 : Shape := ⟨1, ![256]⟩
abbrev S4 : Shape := ⟨1, ![4]⟩
abbrev S1x1x256 : Shape := ⟨3, ![1, 1, 256]⟩
abbrev S_ : Shape := ⟨0, ![]⟩
abbrev S8192x12x12 : Shape := ⟨3, ![8192, 12, 12]⟩
abbrev S1x12x12 : Shape := ⟨3, ![1, 12, 12]⟩
abbrev S8192x12 : Shape := ⟨2, ![8192, 12]⟩
abbrev S8192x12x1 : Shape := ⟨3, ![8192, 12, 1]⟩
abbrev S4x1 : Shape := ⟨2, ![4, 1]⟩
abbrev S8192x4x256 : Shape := ⟨3, ![8192, 4, 256]⟩

abbrev nBuf : Space → Nat
  | .hbm => 80
  | .vmem => 0
  | .smem => 0
  | _ => 0

abbrev bufTy : (tb : Table) → Fin (tcTables nBuf tb) → BufTy
  | .hbm, ⟨0, _⟩ => ⟨S8192x12x256, .f32⟩
  | .hbm, ⟨1, _⟩ => ⟨S12x12, .f32⟩
  | .hbm, ⟨2, _⟩ => ⟨S8192x1x12, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S4, .i32⟩
  | .hbm, ⟨14, _⟩ => ⟨S4, .i1⟩
  | .hbm, ⟨15, _⟩ => ⟨S8192x12x256, .f32⟩
  | .hbm, ⟨16, _⟩ => ⟨S1x1x256, .f32⟩
  | .hbm, ⟨17, _⟩ => ⟨S8192x12x256, .f32⟩
  | .hbm, ⟨18, _⟩ => ⟨S8192x12x256, .f32⟩
  | .hbm, ⟨19, _⟩ => ⟨S_, .f32⟩
  | .hbm, ⟨20, _⟩ => ⟨S8192x12x256, .f32⟩
  | .hbm, ⟨21, _⟩ => ⟨S8192x12x256, .f32⟩
  | .hbm, ⟨22, _⟩ => ⟨S8192x12x256, .f32⟩
  | .hbm, ⟨23, _⟩ => ⟨S1x1x256, .f32⟩
  | .hbm, ⟨24, _⟩ => ⟨S8192x12x256, .f32⟩
  | .hbm, ⟨25, _⟩ => ⟨S8192x12x256, .f32⟩
  | .hbm, ⟨26, _⟩ => ⟨S_, .f32⟩
  | .hbm, ⟨27, _⟩ => ⟨S8192x12x256, .f32⟩
  | .hbm, ⟨28, _⟩ => ⟨S8192x12x256, .f32⟩
  | .hbm, ⟨29, _⟩ => ⟨S8192x12x256, .f32⟩
  | .hbm, ⟨30, _⟩ => ⟨S1x1x256, .f32⟩
  | .hbm, ⟨31, _⟩ => ⟨S8192x12x256, .f32⟩
  | .hbm, ⟨32, _⟩ => ⟨S8192x12x256, .f32⟩
  | .hbm, ⟨33, _⟩ => ⟨S_, .f32⟩
  | .hbm, ⟨34, _⟩ => ⟨S8192x12x256, .f32⟩
  | .hbm, ⟨35, _⟩ => ⟨S8192x12x256, .f32⟩
  | .hbm, ⟨36, _⟩ => ⟨S8192x12x12, .f32⟩
  | .hbm, ⟨37, _⟩ => ⟨S1x12x12, .f32⟩
  | .hbm, ⟨38, _⟩ => ⟨S8192x12x12, .f32⟩
  | .hbm, ⟨39, _⟩ => ⟨S8192x12x12, .f32⟩
  | .hbm, ⟨40, _⟩ => ⟨S_, .f32⟩
  | .hbm, ⟨41, _⟩ => ⟨S12x12, .f32⟩
  | .hbm, ⟨42, _⟩ => ⟨S12x12, .f32⟩
  | .hbm, ⟨43, _⟩ => ⟨S_, .f32⟩
  | .hbm, ⟨44, _⟩ => ⟨S12x12, .f32⟩
  | .hbm, ⟨45, _⟩ => ⟨S12x12, .f32⟩
  | .hbm, ⟨46, _⟩ => ⟨S1x12x12, .f32⟩
  | .hbm, ⟨47, _⟩ => ⟨S8192x12x12, .f32⟩
  | .hbm, ⟨48, _⟩ => ⟨S8192x12x12, .f32⟩
  | .hbm, ⟨49, _⟩ => ⟨S_, .f32⟩
  | .hbm, ⟨50, _⟩ => ⟨S8192x12, .f32⟩
  | .hbm, ⟨51, _⟩ => ⟨S_, .f32⟩
  | .hbm, ⟨52, _⟩ => ⟨S8192x12, .f32⟩
  | .hbm, ⟨53, _⟩ => ⟨S8192x12, .f32⟩
  | .hbm, ⟨54, _⟩ => ⟨S8192x12x1, .f32⟩
  | .hbm, ⟨55, _⟩ => ⟨S8192x12x12, .f32⟩
  | .hbm, ⟨56, _⟩ => ⟨S8192x12x12, .f32⟩
  | .hbm, ⟨57, _⟩ => ⟨S8192x12x12, .f32⟩
  | .hbm, ⟨58, _⟩ => ⟨S_, .f32⟩
  | .hbm, ⟨59, _⟩ => ⟨S8192x12, .f32⟩
  | .hbm, ⟨60, _⟩ => ⟨S8192x12x1, .f32⟩
  | .hbm, ⟨61, _⟩ => ⟨S8192x12x12, .f32⟩
  | .hbm, ⟨62, _⟩ => ⟨S8192x12x12, .f32⟩
  | .hbm, ⟨63, _⟩ => ⟨S8192x12x12, .f32⟩
  | .hbm, ⟨64, _⟩ => ⟨S8192x12x12, .f32⟩
  | .hbm, ⟨65, _⟩ => ⟨S8192x12x256, .f32⟩
  | .hbm, ⟨66, _⟩ => ⟨S8192x12x256, .f32⟩
  | .hbm, ⟨67, _⟩ => ⟨S1x1x256, .f32⟩
  | .hbm, ⟨68, _⟩ => ⟨S8192x12x256, .f32⟩
  | .hbm, ⟨69, _⟩ => ⟨S8192x12x256, .f32⟩
  | .hbm, ⟨70, _⟩ => ⟨S8192x12x256, .f32⟩
  | .hbm, ⟨71, _⟩ => ⟨S1x1x256, .f32⟩
  | .hbm, ⟨72, _⟩ => ⟨S8192x12x256, .f32⟩
  | .hbm, ⟨73, _⟩ => ⟨S8192x12x256, .f32⟩
  | .hbm, ⟨74, _⟩ => ⟨S_, .i32⟩
  | .hbm, ⟨75, _⟩ => ⟨S4, .i32⟩
  | .hbm, ⟨76, _⟩ => ⟨S4, .i32⟩
  | .hbm, ⟨77, _⟩ => ⟨S4, .i32⟩
  | .hbm, ⟨78, _⟩ => ⟨S4x1, .i32⟩
  | .hbm, ⟨79, _⟩ => ⟨S8192x4x256, .f32⟩
  | _, _ => ⟨S8192x12x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_cst : Ref sig .tc := ⟨.hbm, 33, rfl⟩
abbrev main_call2_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_5 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8192x12x256_0_1_2 : S1x1x256.BroadcastsInDim S8192x12x256 (![0, 1, 2] : Fin 3 → Fin S8192x12x256.rank)
  bcast_S_S8192x12x256 : S_.BroadcastsInDim S8192x12x256 (![] : Fin 0 → Fin S8192x12x256.rank)
  bcast_S12x12_S1x12x12_1_2 : S12x12.BroadcastsInDim S1x12x12 (![1, 2] : Fin 2 → Fin S1x12x12.rank)
  bcast_S1x12x12_S8192x12x12_0_1_2 : S1x12x12.BroadcastsInDim S8192x12x12 (![0, 1, 2] : Fin 3 → Fin S8192x12x12.rank)
  bcast_S_S12x12 : S_.BroadcastsInDim S12x12 (![] : Fin 0 → Fin S12x12.rank)
  reducesTo_S8192x12x12_S8192x12_d2 : S8192x12x12.ReducesTo [2] S8192x12
  h_S_ : 0 < S_.numel
  bcast_S_S8192x12 : S_.BroadcastsInDim S8192x12 (![] : Fin 0 → Fin S8192x12.rank)
  bcast_S8192x12_S8192x12x1_0_1 : S8192x12.BroadcastsInDim S8192x12x1 (![0, 1] : Fin 2 → Fin S8192x12x1.rank)
  bcast_S8192x12x1_S8192x12x12_0_1_2 : S8192x12x1.BroadcastsInDim S8192x12x12 (![0, 1, 2] : Fin 3 → Fin S8192x12x12.rank)
  bcast_S8192x1x12_S8192x12x12_0_1_2 : S8192x1x12.BroadcastsInDim S8192x12x12 (![0, 1, 2] : Fin 3 → Fin S8192x12x12.rank)
  bcast_S_S4 : S_.BroadcastsInDim S4 (![] : Fin 0 → Fin S4.rank)
  bcast_S4_S4x1_0 : S4.BroadcastsInDim S4x1 (![0] : Fin 1 → Fin S4x1.rank)
  dot_S8192x12x256_S256x256_S8192x12x256_2_1_01_0_n_n_wf : DotDims.WF S8192x12x256 S256x256 S8192x12x256 [2] [1] [0, 1] [0] [] []
  dot_S8192x12x256_S8192x12x256_S8192x12x12_2_2_1_1_0_0_wf : DotDims.WF S8192x12x256 S8192x12x256 S8192x12x12 [2] [2] [1] [1] [0] [0]
  dot_S8192x12x12_S8192x12x256_S8192x12x256_2_1_1_2_0_0_wf : DotDims.WF S8192x12x12 S8192x12x256 S8192x12x256 [2] [1] [1] [2] [0] [0]
  gather_S8192x12x256_S4x1_S8192x4x256_02_1_n_n_1_1_81921256_wf : GatherDims.WF S8192x12x256 S4x1 S8192x4x256 [0, 2] [1] [] [1] [] 1 ![8192, 1, 256]

variable [Facts₀]

def dot_S8192x12x256_S256x256_S8192x12x256_2_1_01_0_n_n : DotDims S8192x12x256 S256x256 S8192x12x256 where
  lhsContracting := [2]
  rhsContracting := [1]
  lhsNonContracting := [0, 1]
  rhsNonContracting := [0]
  lhsBatch := []
  rhsBatch := []
  wf := dot_S8192x12x256_S256x256_S8192x12x256_2_1_01_0_n_n_wf
def dot_S8192x12x256_S8192x12x256_S8192x12x12_2_2_1_1_0_0 : DotDims S8192x12x256 S8192x12x256 S8192x12x12 where
  lhsContracting := [2]
  rhsContracting := [2]
  lhsNonContracting := [1]
  rhsNonContracting := [1]
  lhsBatch := [0]
  rhsBatch := [0]
  wf := dot_S8192x12x256_S8192x12x256_S8192x12x12_2_2_1_1_0_0_wf
def dot_S8192x12x12_S8192x12x256_S8192x12x256_2_1_1_2_0_0 : DotDims S8192x12x12 S8192x12x256 S8192x12x256 where
  lhsContracting := [2]
  rhsContracting := [1]
  lhsNonContracting := [1]
  rhsNonContracting := [2]
  lhsBatch := [0]
  rhsBatch := [0]
  wf := dot_S8192x12x12_S8192x12x256_S8192x12x256_2_1_1_2_0_0_wf
def gather_S8192x12x256_S4x1_S8192x4x256_02_1_n_n_1_1_81921256 : GatherDims S8192x12x256 S4x1 S8192x4x256 where
  offsetDims := [0, 2]
  collapsedSliceDims := [1]
  operandBatchingDims := []
  startIndicesBatchingDims := []
  startIndexMap := [1]
  indexVectorDim := 1
  sliceSizes := ![8192, 1, 256]
  wf := gather_S8192x12x256_S4x1_S8192x4x256_02_1_n_n_1_1_81921256_wf

class Facts : Prop extends Facts₀ where

variable [Facts]
-- ==== Proof.Spec.lean ====
/-
  The mathematics both programs compute, written once over the extended reals.

  One batch element is a graph of twelve nodes with 256 features each.  Three dense layers with a
  rectifier give every node a value, a key and a query vector.  A query node's score against node m
  is the inner product of its query with m's key, multiplied by the adjacency entry and lowered by
  a large constant times one minus that entry.  The scores of a query node are turned into weights by the
  shifted exponential divided by its sum, each weight is multiplied by the label of its node, and the
  weighted sum of the value vectors goes through two more dense layers.  Only the four query nodes
  0, 3, 6, 9 are kept.
-/
import Idealize.ShloMosaic.PureOps.Ideal
import Idealize.ShloMosaic.Lib.ValueIdx

noncomputable section

namespace Cert.GatSpec

open Idealize.ShloMosaic Idealize.ShloMosaic.ValueIdx

/-- The rectifier's threshold, the adjacency complement's one, the masking constant and the
    maximum's starting value, kept as the words both programs print. -/
abbrev zeroW : EReal := Ideal.ofBits .f32 0x00000000#32
abbrev oneW : EReal := Ideal.ofBits .f32 0x3F800000#32
abbrev bigW : EReal := Ideal.ofBits .f32 0x59FFCB9E#32
abbrev ninfW : EReal := Ideal.ofBits .f32 0xFF800000#32

/-- A dense layer at one row: output feature o is the inner product of the row with row o of the
    weight matrix, plus the bias. -/
def dense (x : Fin 256 → EReal) (W : Fin 256 → Fin 256 → EReal) (b : Fin 256 → EReal) (o : Fin 256) : EReal :=
  (∑ k : Fin 256, x k * W o k) + b o

/-- A dense layer followed by the rectifier. -/
def feat (x : Fin 256 → EReal) (W : Fin 256 → Fin 256 → EReal) (b : Fin 256 → EReal) (o : Fin 256) : EReal :=
  max (dense x W b o) zeroW

/-- The masked score of a query vector against node m's key, under the query node's adjacency row. -/
def score (q : Fin 256 → EReal) (k : Fin 12 → Fin 256 → EReal) (a : Fin 12 → EReal) (m : Fin 12) : EReal :=
  (∑ d : Fin 256, q d * k m d) * a m - bigW * (oneW - a m)

/-- The largest of twelve scores. -/
def rowmax (s : Fin 12 → EReal) : EReal := (Finset.univ : Finset (Fin 12)).fold max ninfW s

/-- The shifted exponential of score m. -/
def expd (s : Fin 12 → EReal) (m : Fin 12) : EReal := Ideal.exp (s m - rowmax s)

/-- The attention weight of node m: the normalized exponential times the node's label. -/
def weight (s : Fin 12 → EReal) (lab : Fin 12 → EReal) (m : Fin 12) : EReal :=
  Ideal.div (expd s m) (∑ j : Fin 12, expd s j) * lab m

/-- The weighted sum of the nodes' value vectors at feature d. -/
def agg (w : Fin 12 → EReal) (v : Fin 12 → Fin 256 → EReal) (d : Fin 256) : EReal :=
  ∑ m : Fin 12, w m * v m d

/-- The output row of query node n of one batch element with node features hb, adjacency
    row a and labels lab. -/
def outRow (hb : Fin 12 → Fin 256 → EReal) (n : Fin 12) (a lab : Fin 12 → EReal)
    (Wv : Fin 256 → Fin 256 → EReal) (bv : Fin 256 → EReal) (Wk : Fin 256 → Fin 256 → EReal) (bk : Fin 256 → EReal)
    (Wq : Fin 256 → Fin 256 → EReal) (bq : Fin 256 → EReal) (Wo : Fin 256 → Fin 256 → EReal) (bo : Fin 256 → EReal)
    (Wf : Fin 256 → Fin 256 → EReal) (bf : Fin 256 → EReal) (o : Fin 256) : EReal :=
  dense (dense (agg (weight (score (feat (hb n) Wq bq) (fun m => feat (hb m) Wk bk) a) lab)
    (fun m => feat (hb m) Wv bv)) Wo bo) Wf bf o

/-- The kept query nodes: 0, 3, 6, 9. -/
def sel (n : Fin 4) : Fin 12 := ⟨3 * n.val, by omega⟩

/-- The whole result as one function of the thirteen argument arrays: entry (b, n, o) is the output
    row of query node sel n of batch element b at feature o. -/
def G (h : (⟨3, ![8192, 12, 256]⟩ : Shape).Idx → EReal) (adj : (⟨2, ![12, 12]⟩ : Shape).Idx → EReal)
    (label : (⟨3, ![8192, 1, 12]⟩ : Shape).Idx → EReal)
    (Wv : (⟨2, ![256, 256]⟩ : Shape).Idx → EReal) (bv : (⟨1, ![256]⟩ : Shape).Idx → EReal)
    (Wk : (⟨2, ![256, 256]⟩ : Shape).Idx → EReal) (bk : (⟨1, ![256]⟩ : Shape).Idx → EReal)
    (Wq : (⟨2, ![256, 256]⟩ : Shape).Idx → EReal) (bq : (⟨1, ![256]⟩ : Shape).Idx → EReal)
    (Wo : (⟨2, ![256, 256]⟩ : Shape).Idx → EReal) (bo : (⟨1, ![256]⟩ : Shape).Idx → EReal)
    (Wf : (⟨2, ![256, 256]⟩ : Shape).Idx → EReal) (bf : (⟨1, ![256]⟩ : Shape).Idx → EReal) :
    (⟨3, ![8192, 4, 256]⟩ : Shape).Idx → EReal := fun j =>
  outRow (fun m d => h (ix3 (j 0) m d)) (sel (j 1)) (fun m => adj (ix2 (sel (j 1)) m)) (fun m => label (ix3 (j 0) (0 : Fin 1) m))
    (fun o k => Wv (ix2 o k)) (fun o => bv (ix1 o)) (fun o k => Wk (ix2 o k)) (fun o => bk (ix1 o))
    (fun o k => Wq (ix2 o k)) (fun o => bq (ix1 o)) (fun o k => Wo (ix2 o k)) (fun o => bo (ix1 o))
    (fun o k => Wf (ix2 o k)) (fun o => bf (ix1 o)) (j 2)

end Cert.GatSpec

end
-- ==== Proof.LibRowGather.lean ====
/-
  GENERAL LEMMA (no program imported): jnp's `table[idx]` on a matrix, read at an element.

  For a table [N, D] and a column of n indices, `table[idx]` prints as a `stablehlo.gather` with start indices [n, 1]
  (the index vector on axis 1), the table's row axis collapsed and start-indexed, its column axis the result's offset axis,
  slices of one whole row.  `gather_rows_apply`: the result at (p, q) is the table at (row, q), the row being index p's
  word read signed and clamped into [0, N − 1], as StableHLO's gather clamps every start index.
-/
import Idealize.ShloMosaic.PureOps.ShapeOps
import Idealize.ShloMosaic.Lib.ValueIdx

noncomputable section

namespace Cert.LibRowGather

open Idealize.ShloMosaic Idealize.ShloMosaic.ValueIdx

/-- The dimension numbers of `table[idx]` for a table [N, D], start indices [n, 1] and a result [n, D]. Their conditions
    are decided on a program's literal shapes; a printed record with these fields is this one. -/
abbrev rowGatherDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE GATHER READ AT (p, q): the table's entry q of the row that index p names, clamped into the table. -/
theorem gather_rows_apply {α : Type} {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (q : Fin D) :
    Host.gather (rowGatherDims N D n wf) x idx (ix2 p q)
      = x (ix2 ⟨min (idx (ix2 p (0 : Fin 1))).toInt.toNat (N - 1), by omega⟩ q) := by
  unfold Host.gather
  refine congrArg x (funext fun a => Fin.ext ?_)
  match a with
  | ⟨0, _⟩ =>
    show (rowGatherDims N D n wf).start (ix2 p q) idx 0 + (rowGatherDims N D n wf).batchCoord (ix2 p q) 0
      + (rowGatherDims N D n wf).offCoord (ix2 p q) 0 = min (idx (ix2 p (0 : Fin 1))).toInt.toNat (N - 1)
    rw [GatherDims.batchCoord_eq_zero (rowGatherDims N D n wf) _ 0 (by show (0 : Fin 2) ∉ ([] : List (Fin 2)); decide),
      GatherDims.offCoord_eq_zero (rowGatherDims N D n wf) _ 0
        (fun h => ((GatherDims.mem_sKept _ _).mp h).1 (List.mem_singleton.mpr rfl))]
    simp only [Nat.add_zero]
    unfold GatherDims.start
    rw [dif_pos (show (0 : Fin 2) ∈ (rowGatherDims N D n wf).startIndexMap from List.mem_singleton.mpr rfl)]
    have hsi : (rowGatherDims N D n wf).siIdx (ix2 p q)
        ⟨List.idxOf (0 : Fin 2) (rowGatherDims N D n wf).startIndexMap, List.idxOf_lt_length_iff.2 (List.mem_singleton.mpr rfl)⟩
        = ix2 p (0 : Fin 1) := funext fun b => Fin.ext (by
      match b with
      | ⟨0, _⟩ => rfl
      | ⟨1, _⟩ => rfl)
    rw [hsi]
    rfl
  | ⟨1, _⟩ =>
    show (rowGatherDims N D n wf).start (ix2 p q) idx 1 + (rowGatherDims N D n wf).batchCoord (ix2 p q) 1
      + (rowGatherDims N D n wf).offCoord (ix2 p q) 1 = q.val
    rw [GatherDims.batchCoord_eq_zero (rowGatherDims N D n wf) _ 1 (by show (1 : Fin 2) ∉ ([] : List (Fin 2)); decide)]
    have hs : (rowGatherDims N D n wf).start (ix2 p q) idx 1 = 0 := by
      unfold GatherDims.start
      rw [dif_neg (show (1 : Fin 2) ∉ (rowGatherDims N D n wf).startIndexMap from by
        show (1 : Fin 2) ∉ ([0] : List (Fin 2)); decide)]
    rw [hs]
    have hk : (1 : Fin 2) ∈ (rowGatherDims N D n wf).sKept :=
      (GatherDims.mem_sKept _ _).mpr ⟨by show (1 : Fin 2) ∉ ([0] : List (Fin 2)); decide,
        by show (1 : Fin 2) ∉ ([] : List (Fin 2)); decide⟩
    unfold GatherDims.offCoord
    rw [dif_pos hk]
    simp only [Nat.zero_add]
    rfl

end Cert.LibRowGather

end
-- ==== Proof.KerHost.lean ====
/-
  What the kernel's program hands the region: the arrays the host operations before the region write,
  read at an index, and each window's block at a grid point read off its array.

  The adjacency rows the region sees are rows 0, 3, 6, 9 of the adjacency matrix; the labels are the
  label array with its unit axis dropped; the five weight matrices are the arguments themselves (a change
  of float format is the identity on the extended reals).  Grid point t works on batch elements
  256 t … 256 t + 255: block t of the node features and of the labels, and the whole of every other array.
-/
import proofs.«403429_j16930761081284_3_alg».proof.Proof.Gen.KernelIdeal.Frame
import proofs.«403429_j16930761081284_3_alg».proof.Proof.Spec
import proofs.«403429_j16930761081284_3_alg».proof.Proof.LibRowGather
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KerHost

open Cert.KernelIdeal Cert.KernelIdeal.Gen Idealize.ShloMosaic Idealize.ShloMosaic.TcCoe Idealize.SL.Sem
open Idealize.ShloMosaic.ValueIdx Idealize.ShloMosaic.StableHlo Cert.GatSpec

variable (m : (ℓ : Loc nD τ sig) → Buf (Elt Ideal) ℓ)

/-! ## The arrays the host operations write -/

/-- The table of kept query nodes as the program computes it. -/
abbrev keptNodes : IVec S4x1 32 :=
  broadcastInDim S4x1 ![0] bcast_S4_S4x1_0
    (select (constantI S4 1 0#1) (addi (fun i => lit0 (S4.rowMajor i)) (broadcastInDim S4 ![] bcast_S_S4 (constantI S_ 32 12#32)))
      (fun i => lit0 (S4.rowMajor i)))

theorem V_v4 (c : Dev nD) : (V m c main_v4 : S4x12.Idx → EReal)
    = Host.gather gather_S12x12_S4x1_S4x12_1_0_n_n_0_1_112 (m ((c : Thread nD τ).loc main_arg1)) keptNodes := by
  dsimp only [Gen.V, Gen.hostOps0]; after_results; rfl

/-- Entry n of the table of kept nodes, clamped into the twelve rows, is 3 n. -/
theorem keptNodes_row : ∀ n : Fin 4, min (keptNodes (ix2 n (0 : Fin 1))).toInt.toNat (12 - 1) = 3 * n.val := by
  intro n
  fin_cases n <;> rfl

/-- The region's adjacency rows are rows 0, 3, 6, 9 of the adjacency matrix. -/
theorem V_v4_apply (c : Dev nD) (n : Fin 4) (mm : Fin 12) :
    (V m c main_v4 : S4x12.Idx → EReal) (ix2 n mm) = m ((c : Thread nD τ).loc main_arg1) (ix2 (sel n) mm) := by
  rw [V_v4]
  refine (Cert.LibRowGather.gather_rows_apply (N := 12) (D := 12) (n := 4) (by decide)
    gather_S12x12_S4x1_S4x12_1_0_n_n_0_1_112_wf (m ((c : Thread nD τ).loc main_arg1)) keptNodes n mm).trans ?_
  refine congrArg (m ((c : Thread nD τ).loc main_arg1)) ?_
  funext a
  apply Fin.ext
  match a with
  | ⟨0, _⟩ => exact keptNodes_row n
  | ⟨1, _⟩ => rfl

theorem V_v5 (c : Dev nD) : (V m c main_v5 : S8192x12.Idx → EReal)
    = shapeCast S8192x12 (m ((c : Thread nD τ).loc main_arg2)) shapeCasts_S8192x1x12_S8192x12 := by
  dsimp only [Gen.V, Gen.hostOps0]; after_results; rfl

/-- The region's labels are the label array with its unit axis dropped. -/
theorem V_v5_apply (c : Dev nD) (b : Fin 8192) (mm : Fin 12) :
    (V m c main_v5 : S8192x12.Idx → EReal) (ix2 b mm) = m ((c : Thread nD τ).loc main_arg2) (ix3 b (0 : Fin 1) mm) := by
  rw [V_v5]
  exact shapeCast_apply (s := S8192x1x12) (t := S8192x12) (m ((c : Thread nD τ).loc main_arg2)) shapeCasts_S8192x1x12_S8192x12
    (ix2 b mm) (ix3 b (0 : Fin 1) mm) (by
      rw [Shape.rowMajor_val_two, Shape.rowMajor_val_three]
      show ((b.val * 1 + 0) * 12 + mm.val) = b.val * 12 + mm.val
      omega)

theorem V_v6 (c : Dev nD) : (V m c main_v6 : S256x256.Idx → EReal) = m ((c : Thread nD τ).loc main_arg3) := by
  dsimp only [Gen.V, Gen.hostOps0]; after_results; rfl
theorem V_v7 (c : Dev nD) : (V m c main_v7 : S256x256.Idx → EReal) = m ((c : Thread nD τ).loc main_arg5) := by
  dsimp only [Gen.V, Gen.hostOps0]; after_results; rfl
theorem V_v8 (c : Dev nD) : (V m c main_v8 : S256x256.Idx → EReal) = m ((c : Thread nD τ).loc main_arg7) := by
  dsimp only [Gen.V, Gen.hostOps0]; after_results; rfl
theorem V_v9 (c : Dev nD) : (V m c main_v9 : S256x256.Idx → EReal) = m ((c : Thread nD τ).loc main_arg9) := by
  dsimp only [Gen.V, Gen.hostOps0]; after_results; rfl
theorem V_v10 (c : Dev nD) : (V m c main_v10 : S256x256.Idx → EReal) = m ((c : Thread nD τ).loc main_arg11) := by
  dsimp only [Gen.V, Gen.hostOps0]; after_results; rfl

end Cert.KernelIdeal.KerHost

end
-- ==== Proof.KerBlocks.lean ====
/-
  Each window's block at a grid point, read at an index off the argument arrays.  Grid point t holds
  batch elements 256 t … 256 t + 255 of the node features and of the labels; every other window holds its
  whole array at every point.
-/
import proofs.«403429_j16930761081284_3_alg».proof.Proof.KerHost

set_option maxRecDepth 16384

noncomputable section

namespace Cert.KernelIdeal.KerBlocks

open Cert.KernelIdeal Cert.KernelIdeal.Gen Cert.KernelIdeal.KerHost Idealize.ShloMosaic Idealize.ShloMosaic.TcCoe Idealize.SL.Sem
open Idealize.ShloMosaic.ValueIdx Cert.GatSpec

variable (m : (ℓ : Loc nD τ sig) → Buf (Elt Ideal) ℓ)

/-- The printed index maps, decided over the 32 grid points: the node features, the labels and the result
    move with the point along the batch axis, every other block index is zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = 0 ∧ win0_11.index t (1 : Fin 2) = 0)
    ∧ win0_12.index t (0 : Fin 1) = 0
    ∧ (win0_13.index t (0 : Fin 3) = t.val ∧ win0_13.index t (1 : Fin 3) = 0 ∧ win0_13.index t (2 : Fin 3) = 0) :=
  (by decide +kernel : ∀ t : Fin grid0.N, _)

/-- The node features' block: batch element 256 t + p. -/
theorem iblk0_apply (c : Dev nD) (t : Fin cfg0.N) (p : Fin 256) (mm : Fin 12) (d : Fin 256) (b : Fin 8192)
    (hb : b.val = 256 * t.val + p.val) :
    (iblk m c 0 t : S256x12x256.Idx → EReal) (ix3 p mm d) = m ((c : Thread nD τ).loc main_arg0) (ix3 b mm d) := by
  show V m c main_arg0 (((cfg0.win 0).blk t).view.emb (ix3 p mm d)) = _
  rw [V_main_arg0]
  refine congrArg _ (funext fun a => Fin.ext ?_)
  obtain ⟨⟨e0, e1, e2⟩, -⟩ := idx_facts t
  match a with
  | ⟨0, _⟩ => show win0_0.index t (0 : Fin 3) * 256 + 1 * p.val = b.val; omega
  | ⟨1, _⟩ => show win0_0.index t (1 : Fin 3) * 12 + 1 * mm.val = mm.val; omega
  | ⟨2, _⟩ => show win0_0.index t (2 : Fin 3) * 256 + 1 * d.val = d.val; omega

/-- The adjacency rows' block is the whole of rows 0, 3, 6, 9 of the adjacency matrix. -/
theorem iblk1_apply (c : Dev nD) (t : Fin cfg0.N) (n : Fin 4) (mm : Fin 12) :
    (iblk m c 1 t : S4x12.Idx → EReal) (ix2 n mm) = m ((c : Thread nD τ).loc main_arg1) (ix2 (sel n) mm) := by
  show V m c main_v4 (((cfg0.win 1).blk t).view.emb (ix2 n mm)) = _
  rw [← V_v4_apply m c n mm]
  refine congrArg _ (funext fun a => Fin.ext ?_)
  obtain ⟨-, ⟨e0, e1⟩, -⟩ := idx_facts t
  match a with
  | ⟨0, _⟩ => show win0_1.index t (0 : Fin 2) * 4 + 1 * n.val = n.val; omega
  | ⟨1, _⟩ => show win0_1.index t (1 : Fin 2) * 12 + 1 * mm.val = mm.val; omega

/-- The labels' block: batch element 256 t + p. -/
theorem iblk2_apply (c : Dev nD) (t : Fin cfg0.N) (p : Fin 256) (mm : Fin 12) (b : Fin 8192)
    (hb : b.val = 256 * t.val + p.val) :
    (iblk m c 2 t : S256x12.Idx → EReal) (ix2 p mm) = m ((c : Thread nD τ).loc main_arg2) (ix3 b (0 : Fin 1) mm) := by
  show V m c main_v5 (((cfg0.win 2).blk t).view.emb (ix2 p mm)) = _
  rw [← V_v5_apply m c b mm]
  refine congrArg _ (funext fun a => Fin.ext ?_)
  obtain ⟨-, -, ⟨e0, e1⟩, -⟩ := idx_facts t
  match a with
  | ⟨0, _⟩ => show win0_2.index t (0 : Fin 2) * 256 + 1 * p.val = b.val; omega
  | ⟨1, _⟩ => show win0_2.index t (1 : Fin 2) * 12 + 1 * mm.val = mm.val; omega

/-- A weight matrix's block is the whole matrix. -/
theorem iblk3_apply (c : Dev nD) (t : Fin cfg0.N) (o k : Fin 256) :
    (iblk m c 3 t : S256x256.Idx → EReal) (ix2 o k) = m ((c : Thread nD τ).loc main_arg3) (ix2 o k) := by
  show V m c main_v6 (((cfg0.win 3).blk t).view.emb (ix2 o k)) = _
  rw [← V_v6 m c]
  refine congrArg _ (funext fun a => Fin.ext ?_)
  obtain ⟨-, -, -, ⟨e0, e1⟩, -⟩ := idx_facts t
  match a with
  | ⟨0, _⟩ => show win0_3.index t (0 : Fin 2) * 256 + 1 * o.val = o.val; omega
  | ⟨1, _⟩ => show win0_3.index t (1 : Fin 2) * 256 + 1 * k.val = k.val; omega

theorem iblk5_apply (c : Dev nD) (t : Fin cfg0.N) (o k : Fin 256) :
    (iblk m c 5 t : S256x256.Idx → EReal) (ix2 o k) = m ((c : Thread nD τ).loc main_arg5) (ix2 o k) := by
  show V m c main_v7 (((cfg0.win 5).blk t).view.emb (ix2 o k)) = _
  rw [← V_v7 m c]
  refine congrArg _ (funext fun a => Fin.ext ?_)
  obtain ⟨-, -, -, -, -, ⟨e0, e1⟩, -⟩ := idx_facts t
  match a with
  | ⟨0, _⟩ => show win0_5.index t (0 : Fin 2) * 256 + 1 * o.val = o.val; omega
  | ⟨1, _⟩ => show win0_5.index t (1 : Fin 2) * 256 + 1 * k.val = k.val; omega

theorem iblk7_apply (c : Dev nD) (t : Fin cfg0.N) (o k : Fin 256) :
    (iblk m c 7 t : S256x256.Idx → EReal) (ix2 o k) = m ((c : Thread nD τ).loc main_arg7) (ix2 o k) := by
  show V m c main_v8 (((cfg0.win 7).blk t).view.emb (ix2 o k)) = _
  rw [← V_v8 m c]
  refine congrArg _ (funext fun a => Fin.ext ?_)
  obtain ⟨-, -, -, -, -, -, -, ⟨e0, e1⟩, -⟩ := idx_facts t
  match a with
  | ⟨0, _⟩ => show win0_7.index t (0 : Fin 2) * 256 + 1 * o.val = o.val; omega
  | ⟨1, _⟩ => show win0_7.index t (1 : Fin 2) * 256 + 1 * k.val = k.val; omega

theorem iblk9_apply (c : Dev nD) (t : Fin cfg0.N) (o k : Fin 256) :
    (iblk m c 9 t : S256x256.Idx → EReal) (ix2 o k) = m ((c : Thread nD τ).loc main_arg9) (ix2 o k) := by
  show V m c main_v9 (((cfg0.win 9).blk t).view.emb (ix2 o k)) = _
  rw [← V_v9 m c]
  refine congrArg _ (funext fun a => Fin.ext ?_)
  obtain ⟨-, -, -, -, -, -, -, -, -, ⟨e0, e1⟩, -⟩ := idx_facts t
  match a with
  | ⟨0, _⟩ => show win0_9.index t (0 : Fin 2) * 256 + 1 * o.val = o.val; omega
  | ⟨1, _⟩ => show win0_9.index t (1 : Fin 2) * 256 + 1 * k.val = k.val; omega

theorem iblk11_apply (c : Dev nD) (t : Fin cfg0.N) (o k : Fin 256) :
    (iblk m c 11 t : S256x256.Idx → EReal) (ix2 o k) = m ((c : Thread nD τ).loc main_arg11) (ix2 o k) := by
  show V m c main_v10 (((cfg0.win 11).blk t).view.emb (ix2 o k)) = _
  rw [← V_v10 m c]
  refine congrArg _ (funext fun a => Fin.ext ?_)
  obtain ⟨-, -, -, -, -, -, -, -, -, -, -, ⟨e0, e1⟩, -⟩ := idx_facts t
  match a with
  | ⟨0, _⟩ => show win0_11.index t (0 : Fin 2) * 256 + 1 * o.val = o.val; omega
  | ⟨1, _⟩ => show win0_11.index t (1 : Fin 2) * 256 + 1 * k.val = k.val; omega

/-- A bias vector's block is the whole vector. -/
theorem iblk4_apply (c : Dev nD) (t : Fin cfg0.N) (o : Fin 256) :
    (iblk m c 4 t : S256.Idx → EReal) (ix1 o) = m ((c : Thread nD τ).loc main_arg4) (ix1 o) := by
  show V m c main_arg4 (((cfg0.win 4).blk t).view.emb (ix1 o)) = _
  rw [V_main_arg4]
  refine congrArg _ (funext fun a => Fin.ext ?_)
  obtain ⟨-, -, -, -, e0, -⟩ := idx_facts t
  match a with
  | ⟨0, _⟩ => show win0_4.index t (0 : Fin 1) * 256 + 1 * o.val = o.val; omega

theorem iblk6_apply (c : Dev nD) (t : Fin cfg0.N) (o : Fin 256) :
    (iblk m c 6 t : S256.Idx → EReal) (ix1 o) = m ((c : Thread nD τ).loc main_arg6) (ix1 o) := by
  show V m c main_arg6 (((cfg0.win 6).blk t).view.emb (ix1 o)) = _
  rw [V_main_arg6]
  refine congrArg _ (funext fun a => Fin.ext ?_)
  obtain ⟨-, -, -, -, -, -, e0, -⟩ := idx_facts t
  match a with
  | ⟨0, _⟩ => show win0_6.index t (0 : Fin 1) * 256 + 1 * o.val = o.val; omega

theorem iblk8_apply (c : Dev nD) (t : Fin cfg0.N) (o : Fin 256) :
    (iblk m c 8 t : S256.Idx → EReal) (ix1 o) = m ((c : Thread nD τ).loc main_arg8) (ix1 o) := by
  show V m c main_arg8 (((cfg0.win 8).blk t).view.emb (ix1 o)) = _
  rw [V_main_arg8]
  refine congrArg _ (funext fun a => Fin.ext ?_)
  obtain ⟨-, -, -, -, -, -, -, -, e0, -⟩ := idx_facts t
  match a with
  | ⟨0, _⟩ => show win0_8.index t (0 : Fin 1) * 256 + 1 * o.val = o.val; omega

theorem iblk10_apply (c : Dev nD) (t : Fin cfg0.N) (o : Fin 256) :
    (iblk m c 10 t : S256.Idx → EReal) (ix1 o) = m ((c : Thread nD τ).loc main_arg10) (ix1 o) := by
  show V m c main_arg10 (((cfg0.win 10).blk t).view.emb (ix1 o)) = _
  rw [V_main_arg10]
  refine congrArg _ (funext fun a => Fin.ext ?_)
  obtain ⟨-, -, -, -, -, -, -, -, -, -, e0, -⟩ := idx_facts t
  match a with
  | ⟨0, _⟩ => show win0_10.index t (0 : Fin 1) * 256 + 1 * o.val = o.val; omega

theorem iblk12_apply (c : Dev nD) (t : Fin cfg0.N) (o : Fin 256) :
    (iblk m c 12 t : S256.Idx → EReal) (ix1 o) = m ((c : Thread nD τ).loc main_arg12) (ix1 o) := by
  show V m c main_arg12 (((cfg0.win 12).blk t).view.emb (ix1 o)) = _
  rw [V_main_arg12]
  refine congrArg _ (funext fun a => Fin.ext ?_)
  obtain ⟨-, -, -, -, -, -, -, -, -, -, -, -, e0, -⟩ := idx_facts t
  match a with
  | ⟨0, _⟩ => show win0_12.index t (0 : Fin 1) * 256 + 1 * o.val = o.val; omega

end Cert.KernelIdeal.KerBlocks

end
-- ==== Proof.KerFeat.lean ====
import proofs.«403429_j16930761081284_3_alg».proof.Proof.Gen.KernelIdeal.Skeleton
import proofs.«403429_j16930761081284_3_alg».proof.Proof.Spec
import Idealize.ShloMosaic.Lib.ValueIdx
import Idealize.ShloMosaic.PureOps.Ideal.Laws
import Idealize.ShloMosaic.Lib.Pipeline.Value
import Idealize.ShloMosaic.Lib.ValueLayout
noncomputable section
namespace Cert.KernelIdeal.KerFeat
open Cert.KernelIdeal Cert.KernelIdeal.Gen Idealize.ShloMosaic Idealize.ShloMosaic.ValueIdx Cert.GatSpec

/-!
  The kernel's three dense layers with the rectifier, read at one entry.

  A batch block holds 256 graphs of twelve nodes with 256 features.  The value and key layers act on all
  twelve nodes: the block is laid out as 3072 rows, row 12·p + m being node m of graph p, multiplied by the
  weight matrix with both operands contracted on their feature axis, the bias is added to every row, and the
  maximum with the zero word is taken.  The query layer acts on the four kept nodes only: the node slices
  0, 3, 6, 9 are put side by side, laid out as 1024 rows, row 4·p + n being node 3·n of graph p, and go
  through the same product, bias and maximum.  Format changes are the identity on the extended reals, so
  each entry is the specification's `feat` of the node's feature row.
-/

/-- A product of an R×256 block with a 256×256 matrix, both contracted on their second axis, started from zero:
    entry (r, o) is the inner product of row r of the block with row o of the matrix. -/
theorem mm_apply {R : Nat} (D : DotDims ⟨2, ![R, 256]⟩ ⟨2, ![256, 256]⟩ ⟨2, ![R, 256]⟩)
    (hlc : D.lhsContracting = [1]) (hrc : D.rhsContracting = [1]) (hln : D.lhsNonContracting = [0])
    (hrn : D.rhsNonContracting = [0]) (hlb : D.lhsBatch = []) (hrb : D.rhsBatch = [])
    (lhs : FVec Ideal ⟨2, ![R, 256]⟩ .bf16) (rhs : FVec Ideal ⟨2, ![256, 256]⟩ .bf16) (r : Fin R) (o : Fin 256) :
    matmul (F := Ideal) D none lhs rhs (constant (F := Ideal) ⟨2, ![R, 256]⟩ .f32 0x00000000#32) (ix2 r o)
      = ∑ k : Fin 256, lhs (ix2 r k) * rhs (ix2 o k) := by
  have hr : D.contr.rank = 1 := by rw [D.rank_contr, hlc]; rfl
  have hs : D.contr.size ⟨0, by omega⟩ = 256 := by
    have h0 : 0 < D.lhsContracting.length := by rw [hlc]; exact Nat.one_pos
    rw [D.size_contr 0 h0]
    simp [hlc]
  refine (Ideal.matmul_constant_zero_apply D none lhs rhs (ix2 r o)).trans ?_
  rw [← Equiv.sum_comp (contrEquiv1 D 256 hr hs).symm]
  refine Finset.sum_congr rfl fun c _ => ?_
  have c2 := contrEquiv1_symm_val D 256 hr hs c
  have l1 : (D.lhsIdx (ix2 r o) ((contrEquiv1 D 256 hr hs).symm c) 1).val = c.val :=
    (D.lhsIdx_val_of_single hlc _ _).trans c2
  have r1 : (D.rhsIdx (ix2 r o) ((contrEquiv1 D 256 hr hs).symm c) 1).val = c.val :=
    (D.rhsIdx_val_of_single hrc _ _).trans c2
  have l0 : (D.lhsIdx (ix2 r o) ((contrEquiv1 D 256 hr hs).symm c) 0).val = r.val := by
    unfold DotDims.lhsIdx
    simp only [hlb, hln, List.not_mem_nil, dite_false, List.mem_singleton, dite_true, Fin.val_cast]
    have key : ∀ (p q : Nat) (hp : p < 2) (hq : q < 2), p = q →
        ((ix2 r o : (⟨2, ![R, 256]⟩ : Shape).Idx) ⟨p, hp⟩).val = ((ix2 r o : (⟨2, ![R, 256]⟩ : Shape).Idx) ⟨q, hq⟩).val :=
      fun p q hp hq h => by subst h; rfl
    exact key _ 0 _ (by omega) (by simp [hlb, hln])
  have r0 : (D.rhsIdx (ix2 r o) ((contrEquiv1 D 256 hr hs).symm c) 0).val = o.val := by
    unfold DotDims.rhsIdx
    simp only [hrb, hrn, List.not_mem_nil, dite_false, List.mem_singleton, dite_true, Fin.val_cast]
    have key : ∀ (p q : Nat) (hp : p < 2) (hq : q < 2), p = q →
        ((ix2 r o : (⟨2, ![R, 256]⟩ : Shape).Idx) ⟨p, hp⟩).val = ((ix2 r o : (⟨2, ![R, 256]⟩ : Shape).Idx) ⟨q, hq⟩).val :=
      fun p q hp hq h => by subst h; rfl
    exact key _ 1 _ (by omega) (by simp [hlb, hln, hrn])
  have l2 : D.lhsIdx (ix2 r o) ((contrEquiv1 D 256 hr hs).symm c) = ix2 r c := by
    funext ax; apply Fin.ext
    match ax with
    | ⟨0, _⟩ => exact l0
    | ⟨1, _⟩ => exact l1
  have r2 : D.rhsIdx (ix2 r o) ((contrEquiv1 D 256 hr hs).symm c) = ix2 o c := by
    funext ax; apply Fin.ext
    match ax with
    | ⟨0, _⟩ => exact r0
    | ⟨1, _⟩ => exact r1
  rw [l2, r2]

/-- One dense layer with the rectifier on an R×256 block: the product into zero, plus the bias spread over the rows,
    compared with the zero word. -/
theorem layer_apply {R : Nat} (D : DotDims ⟨2, ![R, 256]⟩ ⟨2, ![256, 256]⟩ ⟨2, ![R, 256]⟩)
    (hlc : D.lhsContracting = [1]) (hrc : D.rhsContracting = [1]) (hln : D.lhsNonContracting = [0])
    (hrn : D.rhsNonContracting = [0]) (hlb : D.lhsBatch = []) (hrb : D.rhsBatch = [])
    (X : FVec Ideal ⟨2, ![R, 256]⟩ .bf16) (W : FVec Ideal S256x256 .bf16) (bias : FVec Ideal S256 .f32)
    (h1 : S256x256.ShapeCasts S256x256) (h2 : S256.ShapeCasts S1x256)
    (h3 : S1x256.Broadcasts ⟨2, ![R, 256]⟩) (r : Fin R) (o : Fin 256) :
    maximumf (F := Ideal) (addf (F := Ideal)
        (matmul (F := Ideal) D none X (shapeCast S256x256 W h1) (constant (F := Ideal) ⟨2, ![R, 256]⟩ .f32 0x00000000#32))
        (broadcastTo ⟨2, ![R, 256]⟩ (shapeCast S1x256 bias h2) h3))
      (broadcast ⟨2, ![R, 256]⟩ (Scalar.ofBits (F := Ideal) .f32 0x00000000#32)) (ix2 r o)
    = feat (fun k => X (ix2 r k)) (fun o k => W (ix2 o k)) (fun o => bias (ix1 o)) o := by
  rw [maximumf_apply, addf_apply, mm_apply D hlc hrc hln hrn hlb hrb, shapeCast_self, broadcastTo_1b_ab_apply,
    shapeCast_a_1a_apply, broadcast_apply]
  rfl

/-- The rows of the 3072×256 block are the nodes of the batch elements in order: row 12·p + m is node m of element p. -/
theorem pay3_apply (x0 : Vec Ideal S256x12x256 .f32) (p : Fin 256) (m : Fin 12) (k : Fin 256)
    (hr : 12 * p.val + m.val < 3072) :
    k0_pay3 (F := Ideal) x0 (ix2 ⟨12 * p.val + m.val, hr⟩ k) = x0 (ix3 p m k) := by
  unfold k0_pay3 k0_pay2
  refine (shapeCast_apply _ _ _ (ix3 p m k) ?_).trans rfl
  rw [Shape.rowMajor_val_two, Shape.rowMajor_val_three]
  show (p.val * 12 + m.val) * 256 + k.val = (12 * p.val + m.val) * 256 + k.val
  omega

/-- The value layer: entry (p, m, d) is the rectified dense layer of node m of graph p at feature d. -/
theorem pay4_apply (x0 : Vec Ideal S256x12x256 .f32) (x3 : Vec Ideal S256x256 .bf16) (x4 : Vec Ideal S256 .f32) (p : Fin 256) (m : Fin 12) (d : Fin 256) :
    k0_pay4 (F := Ideal) x0 x3 x4 (ix3 p m d) = feat (fun k => x0 (ix3 p m k)) (fun o k => x3 (ix2 o k)) (fun o => x4 (ix1 o)) d := by
  have hr : 12 * p.val + m.val < 3072 := by have := p.isLt; have := m.isLt; omega
  unfold k0_pay4
  refine (shapeCast_apply _ _ (ix3 p m d) (ix2 ⟨12 * p.val + m.val, hr⟩ d) ?_).trans ?_
  · rw [Shape.rowMajor_val_two, Shape.rowMajor_val_three]
    show (12 * p.val + m.val) * 256 + d.val = (p.val * 12 + m.val) * 256 + d.val
    omega
  refine (layer_apply dot_S3072x256_S256x256_S3072x256_1_1_0_0_n_n rfl rfl rfl rfl rfl rfl (k0_pay3 x0) x3 x4 _ _ _ _ d).trans ?_
  simp only [pay3_apply]

/-- The key layer: entry (p, m, d) is the rectified dense layer of node m of graph p at feature d. -/
theorem pay5_apply (x0 : Vec Ideal S256x12x256 .f32) (x5 : Vec Ideal S256x256 .bf16) (x6 : Vec Ideal S256 .f32) (p : Fin 256) (m : Fin 12) (d : Fin 256) :
    k0_pay5 (F := Ideal) x0 x5 x6 (ix3 p m d) = feat (fun k => x0 (ix3 p m k)) (fun o k => x5 (ix2 o k)) (fun o => x6 (ix1 o)) d := by
  have hr : 12 * p.val + m.val < 3072 := by have := p.isLt; have := m.isLt; omega
  unfold k0_pay5
  refine (shapeCast_apply _ _ (ix3 p m d) (ix2 ⟨12 * p.val + m.val, hr⟩ d) ?_).trans ?_
  · rw [Shape.rowMajor_val_two, Shape.rowMajor_val_three]
    show (12 * p.val + m.val) * 256 + d.val = (p.val * 12 + m.val) * 256 + d.val
    omega
  rw [truncf_apply]
  refine (layer_apply dot_S3072x256_S256x256_S3072x256_1_1_0_0_n_n rfl rfl rfl rfl rfl rfl (k0_pay3 x0) x5 x6 _ _ _ _ d).trans ?_
  simp only [pay3_apply]

/-- Four one-node blocks put side by side along the node axis: node n of the result is the n-th block. -/
theorem cat4_apply {α : Type} (f : Fin 4 → (S256x1x256.Idx → α))
    (h : Shape.Concatenates (([⟨S256x1x256, f 0⟩, ⟨S256x1x256, f 1⟩, ⟨S256x1x256, f 2⟩, ⟨S256x1x256, f 3⟩] :
      List ((s : Shape) × (s.Idx → α))).map (·.1)) S256x4x256 1)
    (p : Fin 256) (n : Fin 4) (k : Fin 256) :
    concatenate S256x4x256 1 [⟨S256x1x256, f 0⟩, ⟨S256x1x256, f 1⟩, ⟨S256x1x256, f 2⟩, ⟨S256x1x256, f 3⟩] h (ix3 p n k)
      = f n (ix3 p (0 : Fin 1) k) := by
  have hi : ∀ b : Fin S256x1x256.rank, b.cast (rfl : S256x1x256.rank = S256x4x256.rank) ≠ 1 →
      ((ix3 p (0 : Fin 1) k : S256x1x256.Idx) b).val = ((ix3 p n k : S256x4x256.Idx) (b.cast rfl)).val := by
    intro b hb
    match b with
    | ⟨0, _⟩ => rfl
    | ⟨1, _⟩ => exact absurd rfl hb
    | ⟨2, _⟩ => rfl
  match n with
  | ⟨0, _⟩ => exact concatenate_apply_piece 1 _ h _ 0 (by simp) S256x1x256 (f 0) rfl rfl 0 rfl _ hi rfl
  | ⟨1, _⟩ => exact concatenate_apply_piece 1 _ h _ 1 (by simp) S256x1x256 (f 1) rfl rfl 1 rfl _ hi rfl
  | ⟨2, _⟩ => exact concatenate_apply_piece 1 _ h _ 2 (by simp) S256x1x256 (f 2) rfl rfl 2 rfl _ hi rfl
  | ⟨3, _⟩ => exact concatenate_apply_piece 1 _ h _ 3 (by simp) S256x1x256 (f 3) rfl rfl 3 rfl _ hi rfl

/-- The query layer: entry (p, n, d) is the rectified dense layer of the kept node 3·n of graph p at feature d. -/
theorem pay6_apply (x0 : Vec Ideal S256x12x256 .f32) (x7 : Vec Ideal S256x256 .bf16) (x8 : Vec Ideal S256 .f32) (p : Fin 256) (n : Fin 4) (d : Fin 256) :
    k0_pay6 (F := Ideal) x0 x7 x8 (ix3 p n d) = feat (fun k => x0 (ix3 p (sel n) k)) (fun o k => x7 (ix2 o k)) (fun o => x8 (ix1 o)) d := by
  have hr : 4 * p.val + n.val < 1024 := by have := p.isLt; have := n.isLt; omega
  unfold k0_pay6
  refine (shapeCast_apply _ _ (ix3 p n d) (ix2 ⟨4 * p.val + n.val, hr⟩ d) ?_).trans ?_
  · rw [Shape.rowMajor_val_two, Shape.rowMajor_val_three]
    show (4 * p.val + n.val) * 256 + d.val = (p.val * 4 + n.val) * 256 + d.val
    omega
  rw [truncf_apply]
  refine (layer_apply dot_S1024x256_S256x256_S1024x256_1_1_0_0_n_n rfl rfl rfl rfl rfl rfl _ x7 x8 _ _ _ _ d).trans ?_
  congr 1
  funext k
  refine (shapeCast_apply _ _ _ (ix3 p n k) ?_).trans ?_
  · rw [Shape.rowMajor_val_two, Shape.rowMajor_val_three]
    show (p.val * 4 + n.val) * 256 + k.val = (4 * p.val + n.val) * 256 + k.val
    omega
  refine (cat4_apply
    ![extractStridedSlice S256x1x256 ![0, 0, 0] (k0_pay2 (F := Ideal) x0) slices_S256x12x256_o0_0_0_S256x1x256,
      extractStridedSlice S256x1x256 ![0, 3, 0] (k0_pay2 (F := Ideal) x0) slices_S256x12x256_o0_3_0_S256x1x256,
      extractStridedSlice S256x1x256 ![0, 6, 0] (k0_pay2 (F := Ideal) x0) slices_S256x12x256_o0_6_0_S256x1x256,
      extractStridedSlice S256x1x256 ![0, 9, 0] (k0_pay2 (F := Ideal) x0) slices_S256x12x256_o0_9_0_S256x1x256]
    concatenates_S256x1x256_S256x1x256_S256x1x256_S256x1x256_S256x4x256_d1 p n k).trans ?_
  match n with
  | ⟨0, _⟩ => exact (slice3_axis1_apply 0 (k0_pay2 (F := Ideal) x0) slices_S256x12x256_o0_0_0_S256x1x256 p (0 : Fin 1) k ⟨0, by omega⟩ rfl).trans rfl
  | ⟨1, _⟩ => exact (slice3_axis1_apply 3 (k0_pay2 (F := Ideal) x0) slices_S256x12x256_o0_3_0_S256x1x256 p (0 : Fin 1) k ⟨3, by omega⟩ rfl).trans rfl
  | ⟨2, _⟩ => exact (slice3_axis1_apply 6 (k0_pay2 (F := Ideal) x0) slices_S256x12x256_o0_6_0_S256x1x256 p (0 : Fin 1) k ⟨6, by omega⟩ rfl).trans rfl
  | ⟨3, _⟩ => exact (slice3_axis1_apply 9 (k0_pay2 (F := Ideal) x0) slices_S256x12x256_o0_9_0_S256x1x256 p (0 : Fin 1) k ⟨9, by omega⟩ rfl).trans rfl

end Cert.KernelIdeal.KerFeat
end
-- ==== Proof.KerAttn.lean ====
import proofs.«403429_j16930761081284_3_alg».proof.Proof.Gen.KernelIdeal.Skeleton
import proofs.«403429_j16930761081284_3_alg».proof.Proof.Spec
import Idealize.ShloMosaic.Lib.ValueIdx
import Idealize.ShloMosaic.PureOps.Ideal.Laws
import Idealize.ShloMosaic.Lib.Pipeline.Value
import Idealize.ShloMosaic.Lib.ValueLayout
noncomputable section
namespace Cert.KernelIdeal.KerAttn
open Cert.KernelIdeal Cert.KernelIdeal.Gen Idealize.ShloMosaic Idealize.ShloMosaic.ValueIdx Cert.GatSpec

/-!
  The attention weights the kernel forms, read at one entry (batch element p, query node n, key node m).

  The batched product contracts the 256 features of query n with those of key m; the result is multiplied by the
  adjacency entry and lowered by the large constant times one minus that entry; the row maximum along the twelve keys
  is subtracted, the exponential taken, the sum along the keys divided out, and the key node's label multiplied in.
  Each stage is read at an index by coordinates, and the whole is the spec's weight of the spec's score.
-/

/-! ## The batched product's index maps, coordinate by coordinate -/

theorem lhs_ax0 (j : S256x4x12.Idx) (k : dot_S256x4x256_S256x12x256_S256x4x12_2_2_1_1_0_0.contr.Idx) :
    (dot_S256x4x256_S256x12x256_S256x4x12_2_2_1_1_0_0.lhsIdx j k 0).val = (j 0).val := by
  simp [DotDims.lhsIdx, dot_S256x4x256_S256x12x256_S256x4x12_2_2_1_1_0_0]; rfl

theorem lhs_ax1 (j : S256x4x12.Idx) (k : dot_S256x4x256_S256x12x256_S256x4x12_2_2_1_1_0_0.contr.Idx) :
    (dot_S256x4x256_S256x12x256_S256x4x12_2_2_1_1_0_0.lhsIdx j k 1).val = (j 1).val := by
  simp [DotDims.lhsIdx, dot_S256x4x256_S256x12x256_S256x4x12_2_2_1_1_0_0]; rfl

theorem lhs_ax2 (j : S256x4x12.Idx) (k : dot_S256x4x256_S256x12x256_S256x4x12_2_2_1_1_0_0.contr.Idx) :
    (dot_S256x4x256_S256x12x256_S256x4x12_2_2_1_1_0_0.lhsIdx j k 2).val = (k ⟨0, by decide⟩).val :=
  DotDims.lhsIdx_val_of_single _ rfl j k

theorem rhs_ax0 (j : S256x4x12.Idx) (k : dot_S256x4x256_S256x12x256_S256x4x12_2_2_1_1_0_0.contr.Idx) :
    (dot_S256x4x256_S256x12x256_S256x4x12_2_2_1_1_0_0.rhsIdx j k 0).val = (j 0).val := by
  simp [DotDims.rhsIdx, dot_S256x4x256_S256x12x256_S256x4x12_2_2_1_1_0_0]; rfl

theorem rhs_ax1 (j : S256x4x12.Idx) (k : dot_S256x4x256_S256x12x256_S256x4x12_2_2_1_1_0_0.contr.Idx) :
    (dot_S256x4x256_S256x12x256_S256x4x12_2_2_1_1_0_0.rhsIdx j k 1).val = (j 2).val := by
  simp [DotDims.rhsIdx, dot_S256x4x256_S256x12x256_S256x4x12_2_2_1_1_0_0]; rfl

theorem rhs_ax2 (j : S256x4x12.Idx) (k : dot_S256x4x256_S256x12x256_S256x4x12_2_2_1_1_0_0.contr.Idx) :
    (dot_S256x4x256_S256x12x256_S256x4x12_2_2_1_1_0_0.rhsIdx j k 2).val = (k ⟨0, by decide⟩).val :=
  DotDims.rhsIdx_val_of_single _ rfl j k

/-! ## The batched product at an index: an inner product over the 256 features -/

theorem qk_apply (v38 : FVec Ideal S256x12x256 .bf16) (v40 : FVec Ideal S256x4x256 .bf16) (p : Fin 256) (n : Fin 4) (m : Fin 12) :
    matmul (F := Ideal) dot_S256x4x256_S256x12x256_S256x4x12_2_2_1_1_0_0 none v40 v38 (constant (F := Ideal) S256x4x12 .f32 0x00000000#32) (ix3 p n m)
      = ∑ d : Fin 256, v40 (ix3 p n d) * v38 (ix3 p m d) := by
  refine (Ideal.matmul_constant_zero_apply _ none v40 v38 (ix3 p n m)).trans ?_
  rw [← Equiv.sum_comp (contrEquiv1 dot_S256x4x256_S256x12x256_S256x4x12_2_2_1_1_0_0 256 rfl rfl).symm]
  refine Finset.sum_congr rfl fun d _ => ?_
  have hl : dot_S256x4x256_S256x12x256_S256x4x12_2_2_1_1_0_0.lhsIdx (ix3 p n m)
      ((contrEquiv1 dot_S256x4x256_S256x12x256_S256x4x12_2_2_1_1_0_0 256 rfl rfl).symm d) = ix3 p n d := by
    funext a
    match a with
    | ⟨0, _⟩ => exact Fin.ext (lhs_ax0 _ _)
    | ⟨1, _⟩ => exact Fin.ext (lhs_ax1 _ _)
    | ⟨2, _⟩ => exact Fin.ext ((lhs_ax2 _ _).trans (contrEquiv1_symm_val _ 256 rfl rfl d))
  have hr : dot_S256x4x256_S256x12x256_S256x4x12_2_2_1_1_0_0.rhsIdx (ix3 p n m)
      ((contrEquiv1 dot_S256x4x256_S256x12x256_S256x4x12_2_2_1_1_0_0 256 rfl rfl).symm d) = ix3 p m d := by
    funext a
    match a with
    | ⟨0, _⟩ => exact Fin.ext (rhs_ax0 _ _)
    | ⟨1, _⟩ => exact Fin.ext (rhs_ax1 _ _)
    | ⟨2, _⟩ => exact Fin.ext ((rhs_ax2 _ _).trans (contrEquiv1_symm_val _ 256 rfl rfl d))
  rw [hl, hr]

/-! ## The layout changes at an index -/

section Layout
variable {α : Type}

/-- One [4, 12] slab broadcast over the batch reads the slab. -/
theorem bcast_batch_apply (x : S1x4x12.Idx → α) (h : S1x4x12.Broadcasts S256x4x12) (p : Fin 256) (n : Fin 4) (m : Fin 12) :
    broadcastTo S256x4x12 x h (ix3 p n m) = x (ix3 (0 : Fin 1) n m) := by
  refine broadcastTo_apply x h (ix3 p n m) (ix3 (0 : Fin 1) n m) fun ax => ?_
  match ax with
  | ⟨0, _⟩ => rfl
  | ⟨1, _⟩ => rfl
  | ⟨2, _⟩ => rfl

/-- A per-(batch, query) column broadcast along the twelve keys reads the column. -/
theorem bcast_keys_apply (x : S256x4x1.Idx → α) (h : S256x4x1.Broadcasts S256x4x12) (p : Fin 256) (n : Fin 4) (m : Fin 12) :
    broadcastTo S256x4x12 x h (ix3 p n m) = x (ix3 p n (0 : Fin 1)) := by
  refine broadcastTo_apply x h (ix3 p n m) (ix3 p n (0 : Fin 1)) fun ax => ?_
  match ax with
  | ⟨0, _⟩ => rfl
  | ⟨1, _⟩ => rfl
  | ⟨2, _⟩ => rfl

/-- A per-(batch, key) row broadcast over the four query nodes reads the row. -/
theorem bcast_query_apply (x : S256x1x12.Idx → α) (h : S256x1x12.Broadcasts S256x4x12) (p : Fin 256) (n : Fin 4) (m : Fin 12) :
    broadcastTo S256x4x12 x h (ix3 p n m) = x (ix3 p (0 : Fin 1) m) := by
  refine broadcastTo_apply x h (ix3 p n m) (ix3 p (0 : Fin 1) m) fun ax => ?_
  match ax with
  | ⟨0, _⟩ => rfl
  | ⟨1, _⟩ => rfl
  | ⟨2, _⟩ => rfl

/-- A [256, 4] array given a trailing unit axis. -/
theorem cast_col_apply (x : S256x4.Idx → α) (h : S256x4.ShapeCasts S256x4x1) (p : Fin 256) (n : Fin 4) (u : Fin 1) :
    shapeCast S256x4x1 x h (ix3 p n u) = x (ix2 p n) :=
  shapeCast_apply x h _ _ (by
    have hu : u.val = 0 := by omega
    rw [Shape.rowMajor_val_three, Shape.rowMajor_val_two]
    show p.val * 4 + n.val = (p.val * 4 + n.val) * 1 + u.val
    omega)

/-- A [256, 12] array given a middle unit axis. -/
theorem cast_row_apply (x : S256x12.Idx → α) (h : S256x12.ShapeCasts S256x1x12) (p : Fin 256) (u : Fin 1) (m : Fin 12) :
    shapeCast S256x1x12 x h (ix3 p u m) = x (ix2 p m) :=
  shapeCast_apply x h _ _ (by
    have hu : u.val = 0 := by omega
    rw [Shape.rowMajor_val_three, Shape.rowMajor_val_two]
    show p.val * 12 + m.val = (p.val * 1 + u.val) * 12 + m.val
    omega)

end Layout

/-! ## The two reductions along the keys -/

/-- The reduced index (p, n) with key m put back is (p, n, m). -/
theorem lift_keys (h : S256x4x12.Reduces [2] S256x4) (p : Fin 256) (n : Fin 4) (m : Fin 12) :
    h.lift (ix2 p n) m = ix3 p n m := by
  funext a
  match a with
  | ⟨0, _⟩ => exact Fin.ext rfl
  | ⟨1, _⟩ => exact Fin.ext rfl
  | ⟨2, _⟩ => exact Fin.ext rfl

/-- The maximum along the keys, from the word of minus infinity, is the row maximum. -/
theorem rowmax_apply (src : FVec Ideal S256x4x12 .f32) (h : S256x4x12.Reduces [2] S256x4) (hφ : FKind.Formats .f32)
    (hacc : (0xFF800000#32 : BitVec (FTy.bits .f32)) = FKind.maximumf.neutral .f32 hφ) (p : Fin 256) (n : Fin 4) :
    multiReduction (F := Ideal) .maximumf [2] S256x4 src 0xFF800000#32 h hφ hacc (ix2 p n)
      = rowmax (fun m => src (ix3 p n m)) := by
  refine (Ideal.multiReduction_maximumf_single src _ h hφ hacc (ix2 p n)).trans ?_
  show (Finset.univ : Finset (Fin 12)).fold max ninfW (fun m => src (h.lift (ix2 p n) m)) = _
  unfold rowmax
  exact congrArg (fun f => (Finset.univ : Finset (Fin 12)).fold max ninfW f) (funext fun m => congrArg src (lift_keys h p n m))

/-- The sum along the keys. -/
theorem rowsum_apply (src : FVec Ideal S256x4x12 .f32) (h : S256x4x12.Reduces [2] S256x4) (hφ : FKind.Formats .f32)
    (hacc : (0x00000000#32 : BitVec (FTy.bits .f32)) = FKind.add.neutral .f32 hφ) (p : Fin 256) (n : Fin 4) :
    multiReduction (F := Ideal) .add [2] S256x4 src 0x00000000#32 h hφ hacc (ix2 p n)
      = ∑ m : Fin 12, src (ix3 p n m) := by
  refine (Ideal.multiReduction_add_single src _ h hφ hacc (ix2 p n)).trans ?_
  show ∑ m : Fin 12, src (h.lift (ix2 p n) m) = _
  exact Finset.sum_congr rfl fun m _ => congrArg src (lift_keys h p n m)

/-- The vector exponential at an index. -/
theorem exp_apply {s : Shape} {φ : FTy} (a : FVec Ideal s φ) (i : s.Idx) : Idealize.ShloMosaic.exp a i = Ideal.exp (a i) := rfl

/-! ## The stages -/

/-- The masked scores: the inner product times the adjacency entry, lowered by the large constant times one minus
    that entry. -/
theorem score_stage (v38 : FVec Ideal S256x12x256 .bf16) (v40 : FVec Ideal S256x4x256 .bf16) (x1 : Vec Ideal S4x12 .f32)
    (hs : S4x12.ShapeCasts S4x12) (hc : S4x12.ShapeCasts S1x4x12) (hb : S1x4x12.Broadcasts S256x4x12)
    (p : Fin 256) (n : Fin 4) (m : Fin 12) :
    subf (mulf (matmul (F := Ideal) dot_S256x4x256_S256x12x256_S256x4x12_2_2_1_1_0_0 none v40 v38 (constant (F := Ideal) S256x4x12 .f32 0x00000000#32))
            (broadcastTo S256x4x12 (shapeCast S1x4x12 (shapeCast S4x12 x1 hs) hc) hb))
         (broadcastTo S256x4x12
            (mulf (broadcast S1x4x12 (Scalar.ofBits (F := Ideal) .f32 0x59FFCB9E#32))
              (subf (broadcast S1x4x12 (Scalar.ofBits (F := Ideal) .f32 0x3F800000#32)) (shapeCast S1x4x12 (shapeCast S4x12 x1 hs) hc))) hb)
         (ix3 p n m)
      = score (fun d => v40 (ix3 p n d)) (fun m d => v38 (ix3 p m d)) (fun m => x1 (ix2 n m)) m := by
  rw [subf_apply, mulf_apply, qk_apply, bcast_batch_apply, bcast_batch_apply, mulf_apply, subf_apply, broadcast_apply,
    broadcast_apply, shapeCast_ab_1ab_apply, shapeCast_self]
  rfl

/-- From any array of scores: the shifted exponential over its sum along the keys. -/
theorem softmax_stage (S : FVec Ideal S256x4x12 .f32) (hred : S256x4x12.Reduces [2] S256x4) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : S256x4.ShapeCasts S256x4x1) (hb : S256x4x1.Broadcasts S256x4x12) (p : Fin 256) (n : Fin 4) (m : Fin 12) :
    divf (Idealize.ShloMosaic.exp (subf S (broadcastTo S256x4x12 (shapeCast S256x4x1
              (multiReduction (F := Ideal) .maximumf [2] S256x4 S 0xFF800000#32 hred hφ hmax) hc) hb)))
         (broadcastTo S256x4x12 (shapeCast S256x4x1
            (multiReduction (F := Ideal) .add [2] S256x4
              (Idealize.ShloMosaic.exp (subf S (broadcastTo S256x4x12 (shapeCast S256x4x1
                (multiReduction (F := Ideal) .maximumf [2] S256x4 S 0xFF800000#32 hred hφ hmax) hc) hb)))
              0x00000000#32 hred hφ hadd) hc) hb)
         (ix3 p n m)
      = Ideal.div (expd (fun m => S (ix3 p n m)) m) (∑ j : Fin 12, expd (fun m => S (ix3 p n m)) j) := by
  have hexp : ∀ j : Fin 12, Idealize.ShloMosaic.exp (subf S (broadcastTo S256x4x12 (shapeCast S256x4x1
              (multiReduction (F := Ideal) .maximumf [2] S256x4 S 0xFF800000#32 hred hφ hmax) hc) hb)) (ix3 p n j)
      = expd (fun m => S (ix3 p n m)) j := fun j => by
    rw [exp_apply, subf_apply, bcast_keys_apply, cast_col_apply, rowmax_apply]
    rfl
  rw [divf_apply, hexp, bcast_keys_apply, cast_col_apply, rowsum_apply]
  exact congrArg _ (Finset.sum_congr rfl fun j _ => hexp j)

/-- The labels: the [256, 12] array read at (batch, key), whatever the query node. -/
theorem label_stage (x2 : Vec Ideal S256x12 .f32) (hs : S256x12.ShapeCasts S256x12) (hc : S256x12.ShapeCasts S256x1x12)
    (hb : S256x1x12.Broadcasts S256x4x12) (p : Fin 256) (n : Fin 4) (m : Fin 12) :
    broadcastTo S256x4x12 (shapeCast S256x1x12 (shapeCast S256x12 x2 hs) hc) hb (ix3 p n m) = x2 (ix2 p m) := by
  rw [bcast_query_apply, cast_row_apply, shapeCast_self]

/-- The kernel's weights at (p, n, m): the normalized shifted exponential of query n's masked scores, times the label of
    node m. -/
theorem pay7_apply (v38 : FVec Ideal S256x12x256 .bf16) (v40 : FVec Ideal S256x4x256 .bf16) (x1 : Vec Ideal S4x12 .f32) (x2 : Vec Ideal S256x12 .f32) (p : Fin 256) (n : Fin 4) (m : Fin 12) :
    k0_pay7 (F := Ideal) v38 v40 x1 x2 (ix3 p n m)
      = weight (score (fun d => v40 (ix3 p n d)) (fun m d => v38 (ix3 p m d)) (fun m => x1 (ix2 n m))) (fun m => x2 (ix2 p m)) m := by
  unfold k0_pay7
  refine (mulf_apply _ _ _).trans ?_
  unfold weight
  refine congrArg₂ (· * ·) ((softmax_stage _ _ _ _ _ _ _ p n m).trans ?_) (label_stage x2 _ _ _ p n m)
  refine congrArg₂ Ideal.div (congrArg (fun s => expd s m) ?_) (congrArg (fun s => ∑ j : Fin 12, expd s j) ?_) <;>
    exact funext fun m' => score_stage v38 v40 x1 _ _ _ p n m'

end Cert.KernelIdeal.KerAttn
end
-- ==== Proof.KerAgg.lean ====
import proofs.«403429_j16930761081284_3_alg».proof.Proof.Gen.KernelIdeal.Skeleton
import proofs.«403429_j16930761081284_3_alg».proof.Proof.Spec
import Idealize.ShloMosaic.Lib.ValueIdx
import Idealize.ShloMosaic.PureOps.Ideal.Laws
import Idealize.ShloMosaic.Lib.Pipeline.Value
import Idealize.ShloMosaic.Lib.ValueLayout
noncomputable section
namespace Cert.KernelIdeal.KerAgg
open Cert.KernelIdeal Cert.KernelIdeal.Gen Idealize.ShloMosaic Idealize.ShloMosaic.ValueIdx Cert.GatSpec

/-- Column i of the weight array, repeated along the 256 features, read at (p, n, d): the weight of node i
    for query node n of batch element p. -/
theorem wcol_apply (W : FVec Ideal S256x4x12 .f32) (i : Nat) (hi : i < 12)
    (h : S256x4x12.Slices ![0, 0, i] S256x4x1) (hb : S256x4x1.Broadcasts S256x4x256)
    (p : Fin 256) (n : Fin 4) (d : Fin 256) :
    broadcastTo S256x4x256 (extractStridedSlice S256x4x1 ![0, 0, i] W h) hb (ix3 p n d) = W (ix3 p n ⟨i, hi⟩) := by
  refine (broadcastTo_apply _ hb (ix3 p n d) (ix3 p n (0 : Fin 1)) fun ax => ?_).trans ?_
  · match ax with
    | ⟨0, _⟩ => rfl
    | ⟨1, _⟩ => rfl
    | ⟨2, _⟩ => rfl
  · exact extractStridedSlice_apply _ W h _ _ fun ax => by
      match ax with
      | ⟨0, _⟩ => exact (Nat.zero_add _).symm
      | ⟨1, _⟩ => exact (Nat.zero_add _).symm
      | ⟨2, _⟩ => rfl

/-- Row i of the value array, repeated along the four query nodes, read at (p, n, d): feature d of node i's
    value vector in batch element p. -/
theorem vrow_apply (V : FVec Ideal S256x12x256 .f32) (i : Nat) (hi : i < 12)
    (h : S256x12x256.Slices ![0, i, 0] S256x1x256) (hb : S256x1x256.Broadcasts S256x4x256)
    (p : Fin 256) (n : Fin 4) (d : Fin 256) :
    broadcastTo S256x4x256 (extractStridedSlice S256x1x256 ![0, i, 0] V h) hb (ix3 p n d) = V (ix3 p ⟨i, hi⟩ d) := by
  refine (broadcastTo_apply _ hb (ix3 p n d) (ix3 p (0 : Fin 1) d) fun ax => ?_).trans ?_
  · match ax with
    | ⟨0, _⟩ => rfl
    | ⟨1, _⟩ => rfl
    | ⟨2, _⟩ => rfl
  · exact extractStridedSlice_apply _ V h _ _ fun ax => by
      match ax with
      | ⟨0, _⟩ => exact (Nat.zero_add _).symm
      | ⟨1, _⟩ => rfl
      | ⟨2, _⟩ => exact (Nat.zero_add _).symm

/-- The product of the two repeated arrays at (p, n, d) is node i's weight times node i's value. -/
theorem term_apply (W : FVec Ideal S256x4x12 .f32) (V : FVec Ideal S256x12x256 .f32) (i : Nat) (hi : i < 12)
    (hw : S256x4x12.Slices ![0, 0, i] S256x4x1) (hbw : S256x4x1.Broadcasts S256x4x256)
    (hv : S256x12x256.Slices ![0, i, 0] S256x1x256) (hbv : S256x1x256.Broadcasts S256x4x256)
    (p : Fin 256) (n : Fin 4) (d : Fin 256) :
    mulf (broadcastTo S256x4x256 (extractStridedSlice S256x4x1 ![0, 0, i] W hw) hbw)
      (broadcastTo S256x4x256 (extractStridedSlice S256x1x256 ![0, i, 0] V hv) hbv) (ix3 p n d)
      = W (ix3 p n ⟨i, hi⟩) * V (ix3 p ⟨i, hi⟩ d) := by
  rw [mulf_apply, wcol_apply W i hi hw hbw, vrow_apply V i hi hv hbv]

/-- The twelve-term sum written out from the left, starting at zero. -/
theorem agg_unfold (w : Fin 12 → EReal) (v : Fin 12 → Fin 256 → EReal) (d : Fin 256) :
    agg w v d = ((((((((((((0 + w 0 * v 0 d) + w 1 * v 1 d) + w 2 * v 2 d) + w 3 * v 3 d) + w 4 * v 4 d) + w 5 * v 5 d)
      + w 6 * v 6 d) + w 7 * v 7 d) + w 8 * v 8 d) + w 9 * v 9 d) + w 10 * v 10 d) + w 11 * v 11 d) := by
  unfold agg
  simp only [Fin.sum_univ_castSucc, Fin.sum_univ_zero]
  rfl

/-- The left operand's index of the 1024×256 by 256×256 product (contraction on axis 1 of both) at output
    (r, o) and contraction position k is (r, k). -/
theorem lhsIdx_eq (r : Fin 1024) (o k : Fin 256) :
    dot_S1024x256_S256x256_S1024x256_1_1_0_0_n_n.lhsIdx (ix2 r o)
      ((contrEquiv1 dot_S1024x256_S256x256_S1024x256_1_1_0_0_n_n 256 rfl rfl).symm k) = ix2 r k := by
  funext a
  apply Fin.ext
  match a with
  | ⟨0, _⟩ => rfl
  | ⟨1, _⟩ =>
    exact (DotDims.lhsIdx_val_of_single dot_S1024x256_S256x256_S1024x256_1_1_0_0_n_n (cl := 1) rfl _ _).trans
      (contrEquiv1_symm_val _ _ _ _ k)

/-- The right operand's index at output (r, o) and contraction position k is (o, k). -/
theorem rhsIdx_eq (r : Fin 1024) (o k : Fin 256) :
    dot_S1024x256_S256x256_S1024x256_1_1_0_0_n_n.rhsIdx (ix2 r o)
      ((contrEquiv1 dot_S1024x256_S256x256_S1024x256_1_1_0_0_n_n 256 rfl rfl).symm k) = ix2 o k := by
  funext a
  apply Fin.ext
  match a with
  | ⟨0, _⟩ => rfl
  | ⟨1, _⟩ =>
    exact (DotDims.rhsIdx_val_of_single dot_S1024x256_S256x256_S1024x256_1_1_0_0_n_n (cr := 1) rfl _ _).trans
      (contrEquiv1_symm_val _ _ _ _ k)

/-- The weighted sum of the twelve value vectors, accumulated node by node from zero, laid out with row
    4·p + n for query node n of batch element p, and multiplied by the first output layer's weight matrix:
    entry (r, o) is the inner product of the aggregated vector with row o of the matrix. -/
theorem pay11_apply (v36 : FVec Ideal S256x12x256 .f32) (v38 : FVec Ideal S256x12x256 .bf16) (v40 : FVec Ideal S256x4x256 .bf16)
    (x1 : Vec Ideal S4x12 .f32) (x2 : Vec Ideal S256x12 .f32) (x9 : Vec Ideal S256x256 .bf16)
    (p : Fin 256) (n : Fin 4) (r : Fin 1024) (hr : r.val = 4 * p.val + n.val) (o : Fin 256) :
    k0_pay11 (F := Ideal) v36 (k0_pay7 v38 v40 x1 x2) (k0_pay8 v36 v38 v40 x1 x2) (k0_pay9 v38 v40 x1 x2) (k0_pay10 v36) x9 (ix2 r o)
      = ∑ k : Fin 256, agg (fun m => k0_pay7 (F := Ideal) v38 v40 x1 x2 (ix3 p n m)) (fun m d => v36 (ix3 p m d)) k * x9 (ix2 o k) := by
  unfold k0_pay11 k0_pay8 k0_pay9 k0_pay10
  generalize k0_pay7 (F := Ideal) v38 v40 x1 x2 = W
  show FloatOps.matmul dot_S1024x256_S256x256_S1024x256_1_1_0_0_n_n none _ _ (constant S1024x256 .f32 0x00000000#32) (ix2 r o) = _
  rw [Ideal.matmul_constant_zero_apply]
  rw [← Equiv.sum_comp (contrEquiv1 dot_S1024x256_S256x256_S1024x256_1_1_0_0_n_n 256 rfl rfl).symm]
  refine Finset.sum_congr rfl fun k _ => ?_
  rw [lhsIdx_eq, rhsIdx_eq]
  have hk : (S256x4x256.rowMajor (ix3 p n k)).val = (S1024x256.rowMajor (ix2 r k)).val := by
    rw [Shape.rowMajor_val_three, Shape.rowMajor_val_two]
    show (p.val * 4 + n.val) * 256 + k.val = r.val * 256 + k.val
    omega
  rw [truncf_apply, shapeCast_self, shapeCast_apply _ _ (ix2 r k) (ix3 p n k) hk]
  dsimp only
  simp only [addf_apply]
  rw [term_apply W v36 0 (by omega), term_apply W v36 1 (by omega), term_apply W v36 2 (by omega),
    term_apply W v36 3 (by omega), term_apply W v36 4 (by omega), term_apply W v36 5 (by omega),
    term_apply W v36 6 (by omega), term_apply W v36 7 (by omega), term_apply W v36 8 (by omega),
    term_apply W v36 9 (by omega), term_apply W v36 10 (by omega), term_apply W v36 11 (by omega),
    broadcast_apply, show (FloatOps.ofBits (F := Ideal) .f32 0x00000000#32) = 0 from Ideal.ofBits_zero_f32, agg_unfold]
  rfl

/-- The last layer: the first output layer's product plus its bias is the dense layer's input row, and the
    entry (p, n, o) of the result is the dense layer of that row at output feature o, with r = 4·p + n. -/
theorem pay1_apply (x10 : Vec Ideal S256 .f32) (v146 : FVec Ideal S1024x256 .f32) (x11 : Vec Ideal S256x256 .bf16) (x12 : Vec Ideal S256 .f32)
    (p : Fin 256) (n : Fin 4) (r : Fin 1024) (hr : r.val = 4 * p.val + n.val) (o : Fin 256) :
    k0_pay1 (F := Ideal) x10 v146 x11 x12 (ix3 p n o)
      = dense (fun k => v146 (ix2 r k) + x10 (ix1 k)) (fun o k => x11 (ix2 o k)) (fun o => x12 (ix1 o)) o := by
  unfold k0_pay1
  have hk : (S1024x256.rowMajor (ix2 r o)).val = (S256x4x256.rowMajor (ix3 p n o)).val := by
    rw [Shape.rowMajor_val_three, Shape.rowMajor_val_two]
    show r.val * 256 + o.val = (p.val * 4 + n.val) * 256 + o.val
    omega
  rw [shapeCast_apply _ _ (ix3 p n o) (ix2 r o) hk, addf_apply, broadcastTo_1b_ab_apply, shapeCast_a_1a_apply]
  show FloatOps.matmul dot_S1024x256_S256x256_S1024x256_1_1_0_0_n_n none _ _ (constant S1024x256 .f32 0x00000000#32) (ix2 r o) + _ = _
  rw [Ideal.matmul_constant_zero_apply,
    ← Equiv.sum_comp (contrEquiv1 dot_S1024x256_S256x256_S1024x256_1_1_0_0_n_n 256 rfl rfl).symm]
  unfold dense
  refine congrArg (· + x12 (ix1 o)) (Finset.sum_congr rfl fun k _ => ?_)
  rw [lhsIdx_eq, rhsIdx_eq, truncf_apply, addf_apply, broadcastTo_1b_ab_apply, shapeCast_a_1a_apply, shapeCast_self]

end Cert.KernelIdeal.KerAgg

end
-- ==== Proof.KerPay.lean ====
/-
  The kernel body's result at an entry of its output block, as the specification's output row of the
  body's input blocks: the dense layers, the attention weights, the weighted sum and the two output layers
  composed.
-/
import proofs.«403429_j16930761081284_3_alg».proof.Proof.KerFeat
import proofs.«403429_j16930761081284_3_alg».proof.Proof.KerAttn
import proofs.«403429_j16930761081284_3_alg».proof.Proof.KerAgg
import proofs.«403429_j16930761081284_3_alg».proof.Proof.Gen.KernelIdeal.Frame
import Idealize.ShloMosaic.Lib.Pipeline.Value

noncomputable section

namespace Cert.KernelIdeal.Pay

open Cert.KernelIdeal Cert.KernelIdeal.Gen Idealize.ShloMosaic Idealize.ShloMosaic.ValueIdx Cert.GatSpec
open Cert.KernelIdeal.KerFeat Cert.KernelIdeal.KerAttn Cert.KernelIdeal.KerAgg

/-- Entry (p, n, o) of the body's result: flattened row 4 p + n of the two output layers applied to the
    weighted sum of values of query node sel n of the block's batch element p. -/
theorem pay_apply (x0 : Vec Ideal S256x12x256 .f32) (x1 : Vec Ideal S4x12 .f32) (x2 : Vec Ideal S256x12 .f32)
    (x3 : Vec Ideal S256x256 .bf16) (x4 : Vec Ideal S256 .f32) (x5 : Vec Ideal S256x256 .bf16) (x6 : Vec Ideal S256 .f32)
    (x7 : Vec Ideal S256x256 .bf16) (x8 : Vec Ideal S256 .f32) (x9 : Vec Ideal S256x256 .bf16) (x10 : Vec Ideal S256 .f32)
    (x11 : Vec Ideal S256x256 .bf16) (x12 : Vec Ideal S256 .f32) (p : Fin 256) (n : Fin 4) (o : Fin 256) :
    k0_pay1 (F := Ideal) x10 (k0_pay11 (k0_pay4 x0 x3 x4) (k0_pay7 (k0_pay5 x0 x5 x6) (k0_pay6 x0 x7 x8) x1 x2)
        (k0_pay8 (k0_pay4 x0 x3 x4) (k0_pay5 x0 x5 x6) (k0_pay6 x0 x7 x8) x1 x2)
        (k0_pay9 (k0_pay5 x0 x5 x6) (k0_pay6 x0 x7 x8) x1 x2) (k0_pay10 (k0_pay4 x0 x3 x4)) x9) x11 x12 (ix3 p n o)
      = outRow (fun m d => x0 (ix3 p m d)) (sel n) (fun m => x1 (ix2 n m)) (fun m => x2 (ix2 p m))
          (fun o k => x3 (ix2 o k)) (fun o => x4 (ix1 o)) (fun o k => x5 (ix2 o k)) (fun o => x6 (ix1 o))
          (fun o k => x7 (ix2 o k)) (fun o => x8 (ix1 o)) (fun o k => x9 (ix2 o k)) (fun o => x10 (ix1 o))
          (fun o k => x11 (ix2 o k)) (fun o => x12 (ix1 o)) o := by
  have hr : (⟨4 * p.val + n.val, by omega⟩ : Fin 1024).val = 4 * p.val + n.val := rfl
  rw [pay1_apply x10 _ x11 x12 p n _ hr o]
  unfold outRow
  simp only [pay11_apply _ _ _ _ _ _ p n _ hr, pay7_apply, pay4_apply, pay5_apply, pay6_apply]
  rfl

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- What the body leaves in the output window's buffer, at an entry: its one store covers the buffer, and
    each load reads a whole input block. -/
theorem out_apply (x0 : Vec Ideal S256x12x256 .f32) (x1 : Vec Ideal S4x12 .f32) (x2 : Vec Ideal S256x12 .f32)
    (x3 : Vec Ideal S256x256 .bf16) (x4 : Vec Ideal S256 .f32) (x5 : Vec Ideal S256x256 .bf16) (x6 : Vec Ideal S256 .f32)
    (x7 : Vec Ideal S256x256 .bf16) (x8 : Vec Ideal S256 .f32) (x9 : Vec Ideal S256x256 .bf16) (x10 : Vec Ideal S256 .f32)
    (x11 : Vec Ideal S256x256 .bf16) (x12 : Vec Ideal S256 .f32) (p : Fin 256) (n : Fin 4) (o : Fin 256) :
    out0_13 (F := Ideal) x0 x1 x2 x3 x4 x5 x6 x7 x8 x9 x10 x11 x12 (ix3 p n o)
      = outRow (fun m d => x0 (ix3 p m d)) (sel n) (fun m => x1 (ix2 n m)) (fun m => x2 (ix2 p m))
          (fun o k => x3 (ix2 o k)) (fun o => x4 (ix1 o)) (fun o k => x5 (ix2 o k)) (fun o => x6 (ix1 o))
          (fun o k => x7 (ix2 o k)) (fun o => x8 (ix1 o)) (fun o k => x9 (ix2 o k)) (fun o => x10 (ix1 o))
          (fun o k => x11 (ix2 o k)) (fun o => x12 (ix1 o)) o := by
  unfold out0_13
  rw [View.canon_unit_zero hz3]
  simp only [View.ld_unit_zero (S := S256x12x256) hz3, View.ld_unit_zero (S := S256x256) hz2, View.ld_unit_zero (S := S256) hz1,
    View.ld_unit_zero (S := S4x12) hz2, View.ld_unit_zero (S := S256x12) hz2]
  exact pay_apply x0 x1 x2 x3 x4 x5 x6 x7 x8 x9 x10 x11 x12 p n o

end Cert.KernelIdeal.Pay

end
-- ==== Proof.KerValue.lean ====
/-
  The kernel's result array after its run, as the specification's function of the arguments: each grid
  point writes block t of it, and the 32 blocks cover the array.
-/
import proofs.«403429_j16930761081284_3_alg».proof.Proof.Gen.KernelIdeal.Value
import proofs.«403429_j16930761081284_3_alg».proof.Proof.KerBlocks
import proofs.«403429_j16930761081284_3_alg».proof.Proof.KerPay

set_option maxRecDepth 16384

noncomputable section

namespace Cert.KernelIdeal.KerValue

open Cert.KernelIdeal Cert.KernelIdeal.Gen Cert.KernelIdeal.KerBlocks Idealize.ShloMosaic Idealize.ShloMosaic.TcCoe Idealize.SL.Sem
open Idealize.ShloMosaic.ValueIdx Cert.GatSpec
open Idealize.ShloMosaic.Pipeline (Dat)

variable (m : (ℓ : Loc nD τ sig) → Buf (Elt Ideal) ℓ) (ρ : Dev nD → PrngReg)

/-- The specification's result of the thirteen arguments as launched on core c. -/
abbrev result (c : Dev nD) : S8192x4x256.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- What grid point t writes back is block t of the specification's result: entry (p, n, o) of the block is
    the output row of query node sel n of batch element 256 t + p. -/
theorem flushed_eq (c : Dev nD) (t : Fin cfg0.N) :
    (dats m 0 c).flushed 13 t = ((cfg0.win 13).blk t).view.read (Elt Ideal) (result m c) := by
  rw [Value.flushed13]
  funext y
  show out0_13 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) y
    = result m c (((cfg0.win 13).blk t).view.emb y)
  obtain ⟨p, n, o, rfl⟩ : ∃ (p : Fin 256) (n : Fin 4) (o : Fin 256), y = ix3 p n o := ⟨y 0, y 1, y 2, eq_ix3 y⟩
  have ht : t.val < 32 := t.isLt
  have hb : 256 * t.val + p.val < 8192 := by have := p.isLt; omega
  have hj : ((cfg0.win 13).blk t).view.emb (ix3 p n o) = ix3 (⟨256 * t.val + p.val, hb⟩ : Fin 8192) n o := by
    funext a
    apply Fin.ext
    obtain ⟨-, -, -, -, -, -, -, -, -, -, -, -, -, e0, e1, e2⟩ := idx_facts t
    match a with
    | ⟨0, _⟩ => show win0_13.index t (0 : Fin 3) * 256 + 1 * p.val = 256 * t.val + p.val; omega
    | ⟨1, _⟩ => show win0_13.index t (1 : Fin 3) * 4 + 1 * n.val = n.val; omega
    | ⟨2, _⟩ => show win0_13.index t (2 : Fin 3) * 256 + 1 * o.val = o.val; omega
  rw [hj, Pay.out_apply]
  show _ = outRow _ _ _ _ _ _ _ _ _ _ _ _ _ _ _
  simp only [iblk0_apply m c t p _ _ ⟨256 * t.val + p.val, hb⟩ rfl, iblk1_apply m c t, iblk2_apply m c t p _ ⟨256 * t.val + p.val, hb⟩ rfl,
    iblk3_apply m c t, iblk4_apply m c t, iblk5_apply m c t, iblk6_apply m c t, iblk7_apply m c t, iblk8_apply m c t, iblk9_apply m c t,
    iblk10_apply m c t, iblk11_apply m c t, iblk12_apply m c t]

/-- The blocks of the 32 grid points cover the result array: entry (b, n, o) lies in block b / 256. -/
theorem final (c : Dev nD) : (dats m 0 c).arrAt 13 cfg0.N = result m c :=
  (dats m 0 c).arrAt_eq_of_cover 13 (result m c) (fun t _ => flushed_eq m c t) fun i => by
    have h0 : (i 0).val < 8192 := (i 0).isLt
    have h1 : (i 1).val < 4 := (i 1).isLt
    have h2 : (i 2).val < 256 := (i 2).isLt
    refine ⟨⟨(i 0).val / 256, by show (i 0).val / 256 < 32; omega⟩, flush0_13 _, ?_⟩
    generalize ht : (⟨(i 0).val / 256, by show (i 0).val / 256 < 32; omega⟩ : Fin cfg0.N) = t
    have htv : t.val = (i 0).val / 256 := by rw [← ht]
    show i ∈ ((View.whole main_v11).slice (win0_13.rect t)).set
    rw [View.set_slice_whole, Rect.mem_set_unit]
    obtain ⟨-, -, -, -, -, -, -, -, -, -, -, -, -, e0, e1, e2⟩ := idx_facts t
    intro a
    match a with
    | ⟨0, _⟩ => show win0_13.index t (0 : Fin 3) * 256 ≤ (i 0).val ∧ (i 0).val < win0_13.index t (0 : Fin 3) * 256 + 256; omega
    | ⟨1, _⟩ => show win0_13.index t (1 : Fin 3) * 4 ≤ (i 1).val ∧ (i 1).val < win0_13.index t (1 : Fin 3) * 4 + 4; omega
    | ⟨2, _⟩ => show win0_13.index t (2 : Fin 3) * 256 ≤ (i 2).val ∧ (i 2).val < win0_13.index t (2 : Fin 3) * 256 + 256; omega

/-- The kernel's run: the result array ends at the specification's result of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.KerValue

end
-- ==== Proof.RefTerm.lean ====
/-
  The reference program's result as a composition of its stages, each stage the host operations
  the program applies, at any float instance: a dense layer over every node of every batch element,
  the rectifier, the masked scores, the shifted exponential and its normalization, the labelled
  weights, the weighted sum of values, and the choice of the four kept query nodes.
-/
import proofs.«403429_j16930761081284_3_alg».proof.Proof.Gen.ReferenceIdeal

noncomputable section

namespace Cert.ReferenceIdeal.RefTerm

open Cert.ReferenceIdeal Cert.ReferenceIdeal.Gen Idealize.ShloMosaic

variable {F : FTy → Type} [FloatOps F]

/-- A dense layer applied to every node: the contraction over the feature axis with the weight
    matrix's second axis, plus the bias along the last axis. -/
def lin (x : FVec F S8192x12x256 .f32) (W : FVec F S256x256 .f32) (b : FVec F S256 .f32) : FVec F S8192x12x256 .f32 :=
  addf (Host.dotGeneral dot_S8192x12x256_S256x256_S8192x12x256_2_1_01_0_n_n none x W)
    (broadcastInDim S8192x12x256 ![0, 1, 2] bcast_S1x1x256_S8192x12x256_0_1_2 (broadcastInDim S1x1x256 ![2] bcast_S256_S1x1x256_2 b))

/-- The rectifier: the maximum with zero. -/
def relu (x : FVec F S8192x12x256 .f32) : FVec F S8192x12x256 .f32 :=
  maximumf x (broadcastInDim S8192x12x256 ![] bcast_S_S8192x12x256 (constant S_ .f32 0x00000000#32))

/-- The adjacency matrix repeated over the batch. -/
def overBatch (a : FVec F S12x12 .f32) : FVec F S8192x12x12 .f32 :=
  broadcastInDim S8192x12x12 ![0, 1, 2] bcast_S1x12x12_S8192x12x12_0_1_2 (broadcastInDim S1x12x12 ![1, 2] bcast_S12x12_S1x12x12_1_2 a)

/-- The masked scores: queries against keys, times the adjacency, minus the large constant times
    one minus the adjacency. -/
def scores (q k : FVec F S8192x12x256 .f32) (adj : FVec F S12x12 .f32) : FVec F S8192x12x12 .f32 :=
  subf (mulf (Host.dotGeneral dot_S8192x12x256_S8192x12x256_S8192x12x12_2_2_1_1_0_0 none q k) (overBatch adj))
    (overBatch (mulf (broadcastInDim S12x12 ![] bcast_S_S12x12 (constant S_ .f32 0x59FFCB9E#32))
      (subf (broadcastInDim S12x12 ![] bcast_S_S12x12 (constant S_ .f32 0x3F800000#32)) adj)))

/-- One number per (batch element, query node) repeated along the key axis. -/
def alongKeys (r : FVec F S8192x12 .f32) : FVec F S8192x12x12 .f32 :=
  broadcastInDim S8192x12x12 ![0, 1, 2] bcast_S8192x12x1_S8192x12x12_0_1_2 (broadcastInDim S8192x12x1 ![0, 1] bcast_S8192x12_S8192x12x1_0_1 r)

/-- The exponential of each score less its row's maximum. -/
def expd (s : FVec F S8192x12x12 .f32) : FVec F S8192x12x12 .f32 :=
  Host.exp (subf s (alongKeys (maximumf (broadcastInDim S8192x12 ![] bcast_S_S8192x12 (constant S_ .f32 0xFF800000#32))
    (Host.reduce FloatOps.maximumf s (constant S_ .f32 0xFF800000#32) reducesTo_S8192x12x12_S8192x12_d2 h_S_))))

/-- The normalized exponentials times the labels. -/
def weights (s : FVec F S8192x12x12 .f32) (label : FVec F S8192x1x12 .f32) : FVec F S8192x12x12 .f32 :=
  mulf (Host.divf (expd s) (alongKeys (Host.reduceAdd (expd s) (constant S_ .f32 0x00000000#32) reducesTo_S8192x12x12_S8192x12_d2 h_S_)))
    (broadcastInDim S8192x12x12 ![0, 1, 2] bcast_S8192x1x12_S8192x12x12_0_1_2 label)

/-- The weighted sum of the value vectors. -/
def aggregate (w : FVec F S8192x12x12 .f32) (v : FVec F S8192x12x256 .f32) : FVec F S8192x12x256 .f32 :=
  Host.dotGeneral dot_S8192x12x12_S8192x12x256_S8192x12x256_2_1_1_2_0_0 none w v

/-- The table of kept query nodes as the program computes it: the literal table, twelve added where
    an entry is negative (none is). -/
def keptNodes : IVec S4x1 32 :=
  broadcastInDim S4x1 ![0] bcast_S4_S4x1_0
    (select (constantI S4 1 0#1) (addi (fun i => lit0 (S4.rowMajor i)) (broadcastInDim S4 ![] bcast_S_S4 (constantI S_ 32 12#32)))
      (fun i => lit0 (S4.rowMajor i)))

/-- The rows of the kept query nodes. -/
def pick (x : FVec F S8192x12x256 .f32) : FVec F S8192x4x256 .f32 :=
  Host.gather gather_S8192x12x256_S4x1_S8192x4x256_02_1_n_n_1_1_81921256 x keptNodes

/-- The reference's result as a function of its thirteen arguments. -/
def refOut (h : FVec F S8192x12x256 .f32) (adj : FVec F S12x12 .f32) (label : FVec F S8192x1x12 .f32)
    (Wv : FVec F S256x256 .f32) (bv : FVec F S256 .f32) (Wk : FVec F S256x256 .f32) (bk : FVec F S256 .f32)
    (Wq : FVec F S256x256 .f32) (bq : FVec F S256 .f32) (Wo : FVec F S256x256 .f32) (bo : FVec F S256 .f32)
    (Wf : FVec F S256x256 .f32) (bf : FVec F S256 .f32) : FVec F S8192x4x256 .f32 :=
  pick (lin (lin (aggregate (weights (scores (relu (lin h Wq bq)) (relu (lin h Wk bk)) adj) label) (relu (lin h Wv bv))) Wo bo) Wf bf)

end Cert.ReferenceIdeal.RefTerm

end
-- ==== Proof.RefRun.lean ====
/-
  The reference program's run. Its main function is a straight line of host operations: the two
  literal tables, three dense layers each followed by the rectifier (whose three operations, the zero,
  its broadcast and the maximum, stand at the call over that call's own buffers), the masked scores,
  the row maximum and the shifted exponential, the row sum and the quotient, the labels, the weighted
  sum of values, two further dense layers, the table of kept nodes and the gather of their rows.
  Listed in order, every weakly fair execution terminates with the result buffer holding the
  composition of the stages applied to the arguments' contents at launch, and the arguments unchanged.
-/
import proofs.«403429_j16930761081284_3_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- The main function's 67 operations, in order; each rectifier call contributes its three. -/
abbrev ops : List (HloOp τ sig (Elt F)) :=
  [ nullary main_c (fun i => lit0 (S4.rowMajor i)),
    nullary main_c_0 (constantI S4 1 0#1),
    binary main_arg0 main_arg3 main_v0 ((fun l r => Host.dotGeneral dot_S8192x12x256_S256x256_S8192x12x256_2_1_01_0_n_n none l r) : (⟨S8192x12x256, .f32⟩ : BufTy).Contents (Elt F) → (⟨S256x256, .f32⟩ : BufTy).Contents (Elt F) → (⟨S8192x12x256, .f32⟩ : BufTy).Contents (Elt F)),
    unary main_arg4 main_v1 (broadcastInDim S1x1x256 ![2] bcast_S256_S1x1x256_2 : (⟨S256, .f32⟩ : BufTy).Contents (Elt F) → (⟨S1x1x256, .f32⟩ : BufTy).Contents (Elt F)),
    unary main_v1 main_v2 (broadcastInDim S8192x12x256 ![0, 1, 2] bcast_S1x1x256_S8192x12x256_0_1_2 : (⟨S1x1x256, .f32⟩ : BufTy).Contents (Elt F) → (⟨S8192x12x256, .f32⟩ : BufTy).Contents (Elt F)),
    binary main_v0 main_v2 main_v3 (addf : (⟨S8192x12x256, .f32⟩ : BufTy).Contents (Elt F) → (⟨S8192x12x256, .f32⟩ : BufTy).Contents (Elt F) → (⟨S8192x12x256, .f32⟩ : BufTy).Contents (Elt F)),
    TRef.nullary main_call0.cst (constant S_ .f32 0x00000000#32),
    TRef.unary main_call0.cst main_call0.v0 (broadcastInDim S8192x12x256 ![] bcast_S_S8192x12x256),
    TRef.binary (.of main_v3) main_call0.v0 main_call0.v1 maximumf,
    binary main_arg0 main_arg7 main_v5 ((fun l r => Host.dotGeneral dot_S8192x12x256_S256x256_S8192x12x256_2_1_01_0_n_n none l r) : (⟨S8192x12x256, .f32⟩ : BufTy).Contents (Elt F) → (⟨S256x256, .f32⟩ : BufTy).Contents (Elt F) → (⟨S8192x12x256, .f32⟩ : BufTy).Contents (Elt F)),
    unary main_arg8 main_v6 (broadcastInDim S1x1x256 ![2] bcast_S256_S1x1x256_2 : (⟨S256, .f32⟩ : BufTy).Contents (Elt F) → (⟨S1x1x256, .f32⟩ : BufTy).Contents (Elt F)),
    unary main_v6 main_v7 (broadcastInDim S8192x12x256 ![0, 1, 2] bcast_S1x1x256_S8192x12x256_0_1_2 : (⟨S1x1x256, .f32⟩ : BufTy).Contents (Elt F) → (⟨S8192x12x256, .f32⟩ : BufTy).Contents (Elt F)),
    binary main_v5 main_v7 main_v8 (addf : (⟨S8192x12x256, .f32⟩ : BufTy).Contents (Elt F) → (⟨S8192x12x256, .f32⟩ : BufTy).Contents (Elt F) → (⟨S8192x12x256, .f32⟩ : BufTy).Contents (Elt F)),
    TRef.nullary main_call1.cst (constant S_ .f32 0x00000000#32),
    TRef.unary main_call1.cst main_call1.v0 (broadcastInDim S8192x12x256 ![] bcast_S_S8192x12x256),
    TRef.binary (.of main_v8) main_call1.v0 main_call1.v1 maximumf,
    binary main_arg0 main_arg5 main_v10 ((fun l r => Host.dotGeneral dot_S8192x12x256_S256x256_S8192x12x256_2_1_01_0_n_n none l r) : (⟨S8192x12x256, .f32⟩ : BufTy).Contents (Elt F) → (⟨S256x256, .f32⟩ : BufTy).Contents (Elt F) → (⟨S8192x12x256, .f32⟩ : BufTy).Contents (Elt F)),
    unary main_arg6 main_v11 (broadcastInDim S1x1x256 ![2] bcast_S256_S1x1x256_2 : (⟨S256, .f32⟩ : BufTy).Contents (Elt F) → (⟨S1x1x256, .f32⟩ : BufTy).Contents (Elt F)),
    unary main_v11 main_v12 (broadcastInDim S8192x12x256 ![0, 1, 2] bcast_S1x1x256_S8192x12x256_0_1_2 : (⟨S1x1x256, .f32⟩ : BufTy).Contents (Elt F) → (⟨S8192x12x256, .f32⟩ : BufTy).Contents (Elt F)),
    binary main_v10 main_v12 main_v13 (addf : (⟨S8192x12x256, .f32⟩ : BufTy).Contents (Elt F) → (⟨S8192x12x256, .f32⟩ : BufTy).Contents (Elt F) → (⟨S8192x12x256, .f32⟩ : BufTy).Contents (Elt F)),
    TRef.nullary main_call2.cst (constant S_ .f32 0x00000000#32),
    TRef.unary main_call2.cst main_call2.v0 (broadcastInDim S8192x12x256 ![] bcast_S_S8192x12x256),
    TRef.binary (.of main_v13) main_call2.v0 main_call2.v1 maximumf,
    binary main_v9 main_v14 main_v15 ((fun l r => Host.dotGeneral dot_S8192x12x256_S8192x12x256_S8192x12x12_2_2_1_1_0_0 none l r) : (⟨S8192x12x256, .f32⟩ : BufTy).Contents (Elt F) → (⟨S8192x12x256, .f32⟩ : BufTy).Contents (Elt F) → (⟨S8192x12x12, .f32⟩ : BufTy).Contents (Elt F)),
    unary main_arg1 main_v16 (broadcastInDim S1x12x12 ![1, 2] bcast_S12x12_S1x12x12_1_2 : (⟨S12x12, .f32⟩ : BufTy).Contents (Elt F) → (⟨S1x12x12, .f32⟩ : BufTy).Contents (Elt F)),
    unary main_v16 main_v17 (broadcastInDim S8192x12x12 ![0, 1, 2] bcast_S1x12x12_S8192x12x12_0_1_2 : (⟨S1x12x12, .f32⟩ : BufTy).Contents (Elt F) → (⟨S8192x12x12, .f32⟩ : BufTy).Contents (Elt F)),
    binary main_v15 main_v17 main_v18 (mulf : (⟨S8192x12x12, .f32⟩ : BufTy).Contents (Elt F) → (⟨S8192x12x12, .f32⟩ : BufTy).Contents (Elt F) → (⟨S8192x12x12, .f32⟩ : BufTy).Contents (Elt F)),
    nullary main_cst (constant S_ .f32 0x3F800000#32),
    unary main_cst main_v19 (broadcastInDim S12x12 ![] bcast_S_S12x12 : (⟨S_, .f32⟩ : BufTy).Contents (Elt F) → (⟨S12x12, .f32⟩ : BufTy).Contents (Elt F)),
    binary main_v19 main_arg1 main_v20 (subf : (⟨S12x12, .f32⟩ : BufTy).Contents (Elt F) → (⟨S12x12, .f32⟩ : BufTy).Contents (Elt F) → (⟨S12x12, .f32⟩ : BufTy).Contents (Elt F)),
    nullary main_cst_1 (constant S_ .f32 0x59FFCB9E#32),
    unary main_cst_1 main_v21 (broadcastInDim S12x12 ![] bcast_S_S12x12 : (⟨S_, .f32⟩ : BufTy).Contents (Elt F) → (⟨S12x12, .f32⟩ : BufTy).Contents (Elt F)),
    binary main_v21 main_v20 main_v22 (mulf : (⟨S12x12, .f32⟩ : BufTy).Contents (Elt F) → (⟨S12x12, .f32⟩ : BufTy).Contents (Elt F) → (⟨S12x12, .f32⟩ : BufTy).Contents (Elt F)),
    unary main_v22 main_v23 (broadcastInDim S1x12x12 ![1, 2] bcast_S12x12_S1x12x12_1_2 : (⟨S12x12, .f32⟩ : BufTy).Contents (Elt F) → (⟨S1x12x12, .f32⟩ : BufTy).Contents (Elt F)),
    unary main_v23 main_v24 (broadcastInDim S8192x12x12 ![0, 1, 2] bcast_S1x12x12_S8192x12x12_0_1_2 : (⟨S1x12x12, .f32⟩ : BufTy).Contents (Elt F) → (⟨S8192x12x12, .f32⟩ : BufTy).Contents (Elt F)),
    binary main_v18 main_v24 main_v25 (subf : (⟨S8192x12x12, .f32⟩ : BufTy).Contents (Elt F) → (⟨S8192x12x12, .f32⟩ : BufTy).Contents (Elt F) → (⟨S8192x12x12, .f32⟩ : BufTy).Contents (Elt F)),
    nullary main_cst_2 (constant S_ .f32 0xFF800000#32),
    binary main_v25 main_cst_2 main_v26 ((fun x v => Host.reduce FloatOps.maximumf x v reducesTo_S8192x12x12_S8192x12_d2 h_S_) : (⟨S8192x12x12, .f32⟩ : BufTy).Contents (Elt F) → (⟨S_, .f32⟩ : BufTy).Contents (Elt F) → (⟨S8192x12, .f32⟩ : BufTy).Contents (Elt F)),
    nullary main_cst_3 (constant S_ .f32 0xFF800000#32),
    unary main_cst_3 main_v27 (broadcastInDim S8192x12 ![] bcast_S_S8192x12 : (⟨S_, .f32⟩ : BufTy).Contents (Elt F) → (⟨S8192x12, .f32⟩ : BufTy).Contents (Elt F)),
    binary main_v27 main_v26 main_v28 (maximumf : (⟨S8192x12, .f32⟩ : BufTy).Contents (Elt F) → (⟨S8192x12, .f32⟩ : BufTy).Contents (Elt F) → (⟨S8192x12, .f32⟩ : BufTy).Contents (Elt F)),
    unary main_v28 main_v29 (broadcastInDim S8192x12x1 ![0, 1] bcast_S8192x12_S8192x12x1_0_1 : (⟨S8192x12, .f32⟩ : BufTy).Contents (Elt F) → (⟨S8192x12x1, .f32⟩ : BufTy).Contents (Elt F)),
    unary main_v29 main_v30 (broadcastInDim S8192x12x12 ![0, 1, 2] bcast_S8192x12x1_S8192x12x12_0_1_2 : (⟨S8192x12x1, .f32⟩ : BufTy).Contents (Elt F) → (⟨S8192x12x12, .f32⟩ : BufTy).Contents (Elt F)),
    binary main_v25 main_v30 main_v31 (subf : (⟨S8192x12x12, .f32⟩ : BufTy).Contents (Elt F) → (⟨S8192x12x12, .f32⟩ : BufTy).Contents (Elt F) → (⟨S8192x12x12, .f32⟩ : BufTy).Contents (Elt F)),
    unary main_v31 main_v32 (Host.exp : (⟨S8192x12x12, .f32⟩ : BufTy).Contents (Elt F) → (⟨S8192x12x12, .f32⟩ : BufTy).Contents (Elt F)),
    nullary main_cst_4 (constant S_ .f32 0x00000000#32),
    binary main_v32 main_cst_4 main_v33 ((fun x v => Host.reduceAdd x v reducesTo_S8192x12x12_S8192x12_d2 h_S_) : (⟨S8192x12x12, .f32⟩ : BufTy).Contents (Elt F) → (⟨S_, .f32⟩ : BufTy).Contents (Elt F) → (⟨S8192x12, .f32⟩ : BufTy).Contents (Elt F)),
    unary main_v33 main_v34 (broadcastInDim S8192x12x1 ![0, 1] bcast_S8192x12_S8192x12x1_0_1 : (⟨S8192x12, .f32⟩ : BufTy).Contents (Elt F) → (⟨S8192x12x1, .f32⟩ : BufTy).Contents (Elt F)),
    unary main_v34 main_v35 (broadcastInDim S8192x12x12 ![0, 1, 2] bcast_S8192x12x1_S8192x12x12_0_1_2 : (⟨S8192x12x1, .f32⟩ : BufTy).Contents (Elt F) → (⟨S8192x12x12, .f32⟩ : BufTy).Contents (Elt F)),
    binary main_v32 main_v35 main_v36 (Host.divf : (⟨S8192x12x12, .f32⟩ : BufTy).Contents (Elt F) → (⟨S8192x12x12, .f32⟩ : BufTy).Contents (Elt F) → (⟨S8192x12x12, .f32⟩ : BufTy).Contents (Elt F)),
    unary main_arg2 main_v37 (broadcastInDim S8192x12x12 ![0, 1, 2] bcast_S8192x1x12_S8192x12x12_0_1_2 : (⟨S8192x1x12, .f32⟩ : BufTy).Contents (Elt F) → (⟨S8192x12x12, .f32⟩ : BufTy).Contents (Elt F)),
    binary main_v36 main_v37 main_v38 (mulf : (⟨S8192x12x12, .f32⟩ : BufTy).Contents (Elt F) → (⟨S8192x12x12, .f32⟩ : BufTy).Contents (Elt F) → (⟨S8192x12x12, .f32⟩ : BufTy).Contents (Elt F)),
    binary main_v38 main_v4 main_v39 ((fun l r => Host.dotGeneral dot_S8192x12x12_S8192x12x256_S8192x12x256_2_1_1_2_0_0 none l r) : (⟨S8192x12x12, .f32⟩ : BufTy).Contents (Elt F) → (⟨S8192x12x256, .f32⟩ : BufTy).Contents (Elt F) → (⟨S8192x12x256, .f32⟩ : BufTy).Contents (Elt F)),
    binary main_v39 main_arg9 main_v40 ((fun l r => Host.dotGeneral dot_S8192x12x256_S256x256_S8192x12x256_2_1_01_0_n_n none l r) : (⟨S8192x12x256, .f32⟩ : BufTy).Contents (Elt F) → (⟨S256x256, .f32⟩ : BufTy).Contents (Elt F) → (⟨S8192x12x256, .f32⟩ : BufTy).Contents (Elt F)),
    unary main_arg10 main_v41 (broadcastInDim S1x1x256 ![2] bcast_S256_S1x1x256_2 : (⟨S256, .f32⟩ : BufTy).Contents (Elt F) → (⟨S1x1x256, .f32⟩ : BufTy).Contents (Elt F)),
    unary main_v41 main_v42 (broadcastInDim S8192x12x256 ![0, 1, 2] bcast_S1x1x256_S8192x12x256_0_1_2 : (⟨S1x1x256, .f32⟩ : BufTy).Contents (Elt F) → (⟨S8192x12x256, .f32⟩ : BufTy).Contents (Elt F)),
    binary main_v40 main_v42 main_v43 (addf : (⟨S8192x12x256, .f32⟩ : BufTy).Contents (Elt F) → (⟨S8192x12x256, .f32⟩ : BufTy).Contents (Elt F) → (⟨S8192x12x256, .f32⟩ : BufTy).Contents (Elt F)),
    binary main_v43 main_arg11 main_v44 ((fun l r => Host.dotGeneral dot_S8192x12x256_S256x256_S8192x12x256_2_1_01_0_n_n none l r) : (⟨S8192x12x256, .f32⟩ : BufTy).Contents (Elt F) → (⟨S256x256, .f32⟩ : BufTy).Contents (Elt F) → (⟨S8192x12x256, .f32⟩ : BufTy).Contents (Elt F)),
    unary main_arg12 main_v45 (broadcastInDim S1x1x256 ![2] bcast_S256_S1x1x256_2 : (⟨S256, .f32⟩ : BufTy).Contents (Elt F) → (⟨S1x1x256, .f32⟩ : BufTy).Contents (Elt F)),
    unary main_v45 main_v46 (broadcastInDim S8192x12x256 ![0, 1, 2] bcast_S1x1x256_S8192x12x256_0_1_2 : (⟨S1x1x256, .f32⟩ : BufTy).Contents (Elt F) → (⟨S8192x12x256, .f32⟩ : BufTy).Contents (Elt F)),
    binary main_v44 main_v46 main_v47 (addf : (⟨S8192x12x256, .f32⟩ : BufTy).Contents (Elt F) → (⟨S8192x12x256, .f32⟩ : BufTy).Contents (Elt F) → (⟨S8192x12x256, .f32⟩ : BufTy).Contents (Elt F)),
    nullary main_c_5 (constantI S_ 32 12#32),
    unary main_c_5 main_v48 (broadcastInDim S4 ![] bcast_S_S4 : (⟨S_, .i32⟩ : BufTy).Contents (Elt F) → (⟨S4, .i32⟩ : BufTy).Contents (Elt F)),
    binary main_c main_v48 main_v49 (addi : (⟨S4, .i32⟩ : BufTy).Contents (Elt F) → (⟨S4, .i32⟩ : BufTy).Contents (Elt F) → (⟨S4, .i32⟩ : BufTy).Contents (Elt F)),
    ternary main_c_0 main_v49 main_c main_v50 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v50 main_v51 (broadcastInDim S4x1 ![0] bcast_S4_S4x1_0 : (⟨S4, .i32⟩ : BufTy).Contents (Elt F) → (⟨S4x1, .i32⟩ : BufTy).Contents (Elt F)),
    binary main_v47 main_v51 main_v52 ((fun x i => Host.gather gather_S8192x12x256_S4x1_S8192x4x256_02_1_n_n_1_1_81921256 x i) : (⟨S8192x12x256, .f32⟩ : BufTy).Contents (Elt F) → (⟨S4x1, .i32⟩ : BufTy).Contents (Elt F) → (⟨S8192x4x256, .f32⟩ : BufTy).Contents (Elt F)) ]

set_option maxRecDepth 8192 in
set_option maxHeartbeats 4000000 in
/-- The main function is that straight line: the two windows and the rectifier's body unfolded, and
    sequencing reassociated, both sides are one chain of the same steps. -/
theorem main_eq (c : Dev nD) : main (F := F) c = seq ops := by
  simp only [main, main_part0, main_part1, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., unary_bufs_sub .., binary_bufs_sub .., binary_bufs_sub .., binary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub .., ternary_bufs_sub .., unary_bufs_sub ..,
    binary_bufs_sub ..⟩

attribute [local irreducible] Host.reduce Host.reduceAdd Host.gather in
set_option maxRecDepth 16384 in
set_option maxHeartbeats 4000000 in
/-- What the result buffer holds after the operations, over any contents of the buffers beforehand:
    the composition of the stages at the thirteen arguments. Each operation's result is read at its
    own buffer and passed over at every other; what remains is the stages' definitions unfolded. -/
theorem out_eq (V : Valuation τ sig (Elt F)) :
    after ops V (main_v52 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

theorem arg11_eq (V : Valuation τ sig (Elt F)) :
    after ops V (main_arg11 : DevRef τ sig) = V (main_arg11 : DevRef τ sig) := by
  after_results_simp

theorem arg12_eq (V : Valuation τ sig (Elt F)) :
    after ops V (main_arg12 : DevRef τ sig) = V (main_arg12 : DevRef τ sig) := by
  after_results_simp

/-- On every device, for any float values, from any memory with zero counters: every weakly fair
    execution of the main function terminates with the result at the stages' composition of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v52).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_seq scopedRefs_eq scopedSems_eq defs main (fun _ => ops) main_eq (fun _ => ops_sub) m ρ)

end Cert.ReferenceIdeal.RefRun

end
-- ==== Proof.RefReadDots.lean ====
/-
  The reference's contraction stages and its row choice, read at one index: a dense layer is the
  inner product of a node's feature row with a weight row plus the bias, the rectifier the maximum with
  zero, the masked score the inner product of a query with a key times the adjacency entry less the
  large constant times one minus that entry, the aggregate the weighted sum of the value rows, and
  the row choice reads node 3·n.
-/
import proofs.«403429_j16930761081284_3_alg».proof.Proof.RefTerm
import proofs.«403429_j16930761081284_3_alg».proof.Proof.Spec
import Idealize.ShloMosaic.Lib.ValueIdx
import Idealize.ShloMosaic.PureOps.Ideal.Laws
import Idealize.ShloMosaic.Lib.Pipeline.Value
import Idealize.ShloMosaic.Lib.IdealHost

noncomputable section

namespace Cert.ReferenceIdeal.RefReadDots

open Cert.ReferenceIdeal Cert.ReferenceIdeal.Gen Cert.ReferenceIdeal.RefTerm Idealize.ShloMosaic Idealize.ShloMosaic.ValueIdx Cert.GatSpec

/-- The node-by-weight contraction at (b, n, o): the inner product of node n's row with weight row o. -/
theorem dotW_apply (x : FVec Ideal S8192x12x256 .f32) (W : FVec Ideal S256x256 .f32) (b : Fin 8192) (n : Fin 12) (o : Fin 256) :
    Host.dotGeneral dot_S8192x12x256_S256x256_S8192x12x256_2_1_01_0_n_n none x W (ix3 b n o)
      = ∑ k : Fin 256, x (ix3 b n k) * W (ix2 o k) := by
  show FloatOps.dotGeneral _ none _ x W (ix3 b n o) = _
  rw [Ideal.dotGeneral_apply,
    ← Equiv.sum_comp (contrEquiv1 dot_S8192x12x256_S256x256_S8192x12x256_2_1_01_0_n_n 256 rfl rfl).symm]
  refine Finset.sum_congr rfl fun c _ => ?_
  have c3 := contrEquiv1_symm_val dot_S8192x12x256_S256x256_S8192x12x256_2_1_01_0_n_n 256 rfl rfl c
  have l3 : dot_S8192x12x256_S256x256_S8192x12x256_2_1_01_0_n_n.lhsIdx (ix3 b n o)
      ((contrEquiv1 _ 256 rfl rfl).symm c) = ix3 b n c := by
    funext ax; apply Fin.ext
    match ax with
    | ⟨0, _⟩ => simp [DotDims.lhsIdx, dot_S8192x12x256_S256x256_S8192x12x256_2_1_01_0_n_n]; rfl
    | ⟨1, _⟩ => simp [DotDims.lhsIdx, dot_S8192x12x256_S256x256_S8192x12x256_2_1_01_0_n_n]; rfl
    | ⟨2, _⟩ => simp [DotDims.lhsIdx, dot_S8192x12x256_S256x256_S8192x12x256_2_1_01_0_n_n]; exact c3
  have r3 : dot_S8192x12x256_S256x256_S8192x12x256_2_1_01_0_n_n.rhsIdx (ix3 b n o)
      ((contrEquiv1 _ 256 rfl rfl).symm c) = ix2 o c := by
    funext ax; apply Fin.ext
    match ax with
    | ⟨0, _⟩ => simp [DotDims.rhsIdx, dot_S8192x12x256_S256x256_S8192x12x256_2_1_01_0_n_n]; rfl
    | ⟨1, _⟩ => simp [DotDims.rhsIdx, dot_S8192x12x256_S256x256_S8192x12x256_2_1_01_0_n_n]; exact c3
  rw [l3, r3]

/-- The query-by-key contraction at (b, n, m): the inner product of node n's query with node m's key. -/
theorem dotQK_apply (q k : FVec Ideal S8192x12x256 .f32) (b : Fin 8192) (n m : Fin 12) :
    Host.dotGeneral dot_S8192x12x256_S8192x12x256_S8192x12x12_2_2_1_1_0_0 none q k (ix3 b n m)
      = ∑ d : Fin 256, q (ix3 b n d) * k (ix3 b m d) := by
  show FloatOps.dotGeneral _ none _ q k (ix3 b n m) = _
  rw [Ideal.dotGeneral_apply,
    ← Equiv.sum_comp (contrEquiv1 dot_S8192x12x256_S8192x12x256_S8192x12x12_2_2_1_1_0_0 256 rfl rfl).symm]
  refine Finset.sum_congr rfl fun c _ => ?_
  have c3 := contrEquiv1_symm_val dot_S8192x12x256_S8192x12x256_S8192x12x12_2_2_1_1_0_0 256 rfl rfl c
  have l3 : dot_S8192x12x256_S8192x12x256_S8192x12x12_2_2_1_1_0_0.lhsIdx (ix3 b n m)
      ((contrEquiv1 _ 256 rfl rfl).symm c) = ix3 b n c := by
    funext ax; apply Fin.ext
    match ax with
    | ⟨0, _⟩ => simp [DotDims.lhsIdx, dot_S8192x12x256_S8192x12x256_S8192x12x12_2_2_1_1_0_0]; rfl
    | ⟨1, _⟩ => simp [DotDims.lhsIdx, dot_S8192x12x256_S8192x12x256_S8192x12x12_2_2_1_1_0_0]; rfl
    | ⟨2, _⟩ => simp [DotDims.lhsIdx, dot_S8192x12x256_S8192x12x256_S8192x12x12_2_2_1_1_0_0]; exact c3
  have r3 : dot_S8192x12x256_S8192x12x256_S8192x12x12_2_2_1_1_0_0.rhsIdx (ix3 b n m)
      ((contrEquiv1 _ 256 rfl rfl).symm c) = ix3 b m c := by
    funext ax; apply Fin.ext
    match ax with
    | ⟨0, _⟩ => simp [DotDims.rhsIdx, dot_S8192x12x256_S8192x12x256_S8192x12x12_2_2_1_1_0_0]; rfl
    | ⟨1, _⟩ => simp [DotDims.rhsIdx, dot_S8192x12x256_S8192x12x256_S8192x12x12_2_2_1_1_0_0]; rfl
    | ⟨2, _⟩ => simp [DotDims.rhsIdx, dot_S8192x12x256_S8192x12x256_S8192x12x12_2_2_1_1_0_0]; exact c3
  rw [l3, r3]

/-- The weight-by-value contraction at (b, n, d): the sum over nodes m of weight (n, m) times value (m, d). -/
theorem dotWV_apply (w : FVec Ideal S8192x12x12 .f32) (v : FVec Ideal S8192x12x256 .f32) (b : Fin 8192) (n : Fin 12) (d : Fin 256) :
    Host.dotGeneral dot_S8192x12x12_S8192x12x256_S8192x12x256_2_1_1_2_0_0 none w v (ix3 b n d)
      = ∑ m : Fin 12, w (ix3 b n m) * v (ix3 b m d) := by
  show FloatOps.dotGeneral _ none _ w v (ix3 b n d) = _
  rw [Ideal.dotGeneral_apply,
    ← Equiv.sum_comp (contrEquiv1 dot_S8192x12x12_S8192x12x256_S8192x12x256_2_1_1_2_0_0 12 rfl rfl).symm]
  refine Finset.sum_congr rfl fun c _ => ?_
  have c3 := contrEquiv1_symm_val dot_S8192x12x12_S8192x12x256_S8192x12x256_2_1_1_2_0_0 12 rfl rfl c
  have l3 : dot_S8192x12x12_S8192x12x256_S8192x12x256_2_1_1_2_0_0.lhsIdx (ix3 b n d)
      ((contrEquiv1 _ 12 rfl rfl).symm c) = ix3 b n c := by
    funext ax; apply Fin.ext
    match ax with
    | ⟨0, _⟩ => simp [DotDims.lhsIdx, dot_S8192x12x12_S8192x12x256_S8192x12x256_2_1_1_2_0_0]; rfl
    | ⟨1, _⟩ => simp [DotDims.lhsIdx, dot_S8192x12x12_S8192x12x256_S8192x12x256_2_1_1_2_0_0]; rfl
    | ⟨2, _⟩ => simp [DotDims.lhsIdx, dot_S8192x12x12_S8192x12x256_S8192x12x256_2_1_1_2_0_0]; exact c3
  have r3 : dot_S8192x12x12_S8192x12x256_S8192x12x256_2_1_1_2_0_0.rhsIdx (ix3 b n d)
      ((contrEquiv1 _ 12 rfl rfl).symm c) = ix3 b c d := by
    funext ax; apply Fin.ext
    match ax with
    | ⟨0, _⟩ => simp [DotDims.rhsIdx, dot_S8192x12x12_S8192x12x256_S8192x12x256_2_1_1_2_0_0]; rfl
    | ⟨1, _⟩ => simp [DotDims.rhsIdx, dot_S8192x12x12_S8192x12x256_S8192x12x256_2_1_1_2_0_0]; exact c3
    | ⟨2, _⟩ => simp [DotDims.rhsIdx, dot_S8192x12x12_S8192x12x256_S8192x12x256_2_1_1_2_0_0]; rfl
  rw [l3, r3]

/-- The bias along the last axis, repeated over batch elements and nodes, reads the bias at the feature. -/
theorem bias_apply (bb : FVec Ideal S256 .f32) (b : Fin 8192) (n : Fin 12) (o : Fin 256) :
    broadcastInDim S8192x12x256 ![0, 1, 2] bcast_S1x1x256_S8192x12x256_0_1_2
      (broadcastInDim S1x1x256 ![2] bcast_S256_S1x1x256_2 bb) (ix3 b n o) = bb (ix1 o) := by
  rw [broadcastInDim_apply _ _ _ (ix3 b n o) (ix3 (0 : Fin 1) (0 : Fin 1) o) (fun a => by
    match a with
    | ⟨0, _⟩ => rfl
    | ⟨1, _⟩ => rfl
    | ⟨2, _⟩ => rfl)]
  rw [broadcastInDim_apply _ _ _ (ix3 (0 : Fin 1) (0 : Fin 1) o) (ix1 o) (fun a => by
    match a with
    | ⟨0, _⟩ => rfl)]

/-- The adjacency matrix repeated over the batch reads the matrix at the node pair. -/
theorem overBatch_apply (a : FVec Ideal S12x12 .f32) (b : Fin 8192) (n m : Fin 12) :
    overBatch (F := Ideal) a (ix3 b n m) = a (ix2 n m) := by
  unfold overBatch
  rw [broadcastInDim_apply _ _ _ (ix3 b n m) (ix3 (0 : Fin 1) n m) (fun a => by
    match a with
    | ⟨0, _⟩ => rfl
    | ⟨1, _⟩ => rfl
    | ⟨2, _⟩ => rfl)]
  rw [broadcastInDim_apply _ _ _ (ix3 (0 : Fin 1) n m) (ix2 n m) (fun a => by
    match a with
    | ⟨0, _⟩ => rfl
    | ⟨1, _⟩ => rfl)]

theorem lin_apply (x : FVec Ideal S8192x12x256 .f32) (W : FVec Ideal S256x256 .f32) (bb : FVec Ideal S256 .f32) (b : Fin 8192) (n : Fin 12) (o : Fin 256) :
    lin (F := Ideal) x W bb (ix3 b n o) = dense (fun k => x (ix3 b n k)) (fun o k => W (ix2 o k)) (fun o => bb (ix1 o)) o := by
  unfold lin dense
  rw [addf_apply, dotW_apply, bias_apply]

theorem relu_apply (x : FVec Ideal S8192x12x256 .f32) (b : Fin 8192) (n : Fin 12) (o : Fin 256) :
    relu (F := Ideal) x (ix3 b n o) = max (x (ix3 b n o)) zeroW := by
  unfold relu
  rw [maximumf_apply, broadcastInDim_scalar_apply, constant_apply]

theorem scores_apply (q k : FVec Ideal S8192x12x256 .f32) (adj : FVec Ideal S12x12 .f32) (b : Fin 8192) (n m : Fin 12) :
    scores (F := Ideal) q k adj (ix3 b n m) = score (fun d => q (ix3 b n d)) (fun m d => k (ix3 b m d)) (fun m => adj (ix2 n m)) m := by
  unfold scores score
  rw [subf_apply, mulf_apply, dotQK_apply, overBatch_apply, overBatch_apply, mulf_apply, subf_apply,
    broadcastInDim_scalar_apply, broadcastInDim_scalar_apply, constant_apply, constant_apply]

theorem aggregate_apply (w : FVec Ideal S8192x12x12 .f32) (v : FVec Ideal S8192x12x256 .f32) (b : Fin 8192) (n : Fin 12) (d : Fin 256) :
    aggregate (F := Ideal) w v (ix3 b n d) = agg (fun m => w (ix3 b n m)) (fun m d => v (ix3 b m d)) d := by
  unfold aggregate agg
  exact dotWV_apply w v b n d

/-- The table of kept nodes at row n is the literal word of row n: the mask that would add twelve is false everywhere. -/
theorem keptNodes_apply (n : Fin 4) : keptNodes (ix2 n (0 : Fin 1)) = lit0 n := by
  unfold keptNodes
  rw [broadcastInDim_apply _ _ _ (ix2 n (0 : Fin 1)) (ix1 n) (fun a => by
    match a with
    | ⟨0, _⟩ => rfl)]
  rw [select_apply]
  show Scalar.select 0#1 _ (lit0 (S4.rowMajor (ix1 n))) = lit0 n
  rw [select_zero]
  exact congrArg lit0 (Fin.ext (Shape.rowMajor_val_one (ix1 n)))

theorem pick_apply (x : FVec Ideal S8192x12x256 .f32) (b : Fin 8192) (n : Fin 4) (o : Fin 256) :
    pick (F := Ideal) x (ix3 b n o) = x (ix3 b (sel n) o) := by
  unfold pick Host.gather
  refine congrArg x (funext fun a => Fin.ext ?_)
  match a with
  | ⟨0, _⟩ =>
    show gather_S8192x12x256_S4x1_S8192x4x256_02_1_n_n_1_1_81921256.start (ix3 b n o) keptNodes 0
      + gather_S8192x12x256_S4x1_S8192x4x256_02_1_n_n_1_1_81921256.batchCoord (ix3 b n o) 0
      + gather_S8192x12x256_S4x1_S8192x4x256_02_1_n_n_1_1_81921256.offCoord (ix3 b n o) 0 = b.val
    rw [GatherDims.batchCoord_eq_zero gather_S8192x12x256_S4x1_S8192x4x256_02_1_n_n_1_1_81921256 _ 0
      (by show (0 : Fin 3) ∉ ([] : List (Fin 3)); decide)]
    have hs : gather_S8192x12x256_S4x1_S8192x4x256_02_1_n_n_1_1_81921256.start (ix3 b n o) keptNodes 0 = 0 := by
      unfold GatherDims.start
      rw [dif_neg (show (0 : Fin 3) ∉ gather_S8192x12x256_S4x1_S8192x4x256_02_1_n_n_1_1_81921256.startIndexMap from by
        show (0 : Fin 3) ∉ ([1] : List (Fin 3)); decide)]
    rw [hs]
    have hk : (0 : Fin 3) ∈ gather_S8192x12x256_S4x1_S8192x4x256_02_1_n_n_1_1_81921256.sKept :=
      (GatherDims.mem_sKept _ _).mpr ⟨by show (0 : Fin 3) ∉ ([1] : List (Fin 3)); decide,
        by show (0 : Fin 3) ∉ ([] : List (Fin 3)); decide⟩
    unfold GatherDims.offCoord
    rw [dif_pos hk]
    simp only [Nat.zero_add]
    rfl
  | ⟨1, _⟩ =>
    show gather_S8192x12x256_S4x1_S8192x4x256_02_1_n_n_1_1_81921256.start (ix3 b n o) keptNodes 1
      + gather_S8192x12x256_S4x1_S8192x4x256_02_1_n_n_1_1_81921256.batchCoord (ix3 b n o) 1
      + gather_S8192x12x256_S4x1_S8192x4x256_02_1_n_n_1_1_81921256.offCoord (ix3 b n o) 1 = (sel n).val
    rw [GatherDims.batchCoord_eq_zero gather_S8192x12x256_S4x1_S8192x4x256_02_1_n_n_1_1_81921256 _ 1
      (by show (1 : Fin 3) ∉ ([] : List (Fin 3)); decide),
      GatherDims.offCoord_eq_zero gather_S8192x12x256_S4x1_S8192x4x256_02_1_n_n_1_1_81921256 _ 1
        (fun h => ((GatherDims.mem_sKept _ _).mp h).1 (List.mem_singleton.mpr rfl))]
    simp only [Nat.add_zero]
    unfold GatherDims.start
    rw [dif_pos (show (1 : Fin 3) ∈ gather_S8192x12x256_S4x1_S8192x4x256_02_1_n_n_1_1_81921256.startIndexMap from
      List.mem_singleton.mpr rfl)]
    have hsi : gather_S8192x12x256_S4x1_S8192x4x256_02_1_n_n_1_1_81921256.siIdx (ix3 b n o)
        ⟨List.idxOf (1 : Fin 3) gather_S8192x12x256_S4x1_S8192x4x256_02_1_n_n_1_1_81921256.startIndexMap,
          List.idxOf_lt_length_iff.2 (List.mem_singleton.mpr rfl)⟩
        = ix2 n (0 : Fin 1) := funext fun c => Fin.ext (by
      match c with
      | ⟨0, _⟩ => rfl
      | ⟨1, _⟩ => rfl)
    rw [hsi, keptNodes_apply]
    match n with
    | ⟨0, _⟩ => rfl
    | ⟨1, _⟩ => rfl
    | ⟨2, _⟩ => rfl
    | ⟨3, _⟩ => rfl
  | ⟨2, _⟩ =>
    show gather_S8192x12x256_S4x1_S8192x4x256_02_1_n_n_1_1_81921256.start (ix3 b n o) keptNodes 2
      + gather_S8192x12x256_S4x1_S8192x4x256_02_1_n_n_1_1_81921256.batchCoord (ix3 b n o) 2
      + gather_S8192x12x256_S4x1_S8192x4x256_02_1_n_n_1_1_81921256.offCoord (ix3 b n o) 2 = o.val
    rw [GatherDims.batchCoord_eq_zero gather_S8192x12x256_S4x1_S8192x4x256_02_1_n_n_1_1_81921256 _ 2
      (by show (2 : Fin 3) ∉ ([] : List (Fin 3)); decide)]
    have hs : gather_S8192x12x256_S4x1_S8192x4x256_02_1_n_n_1_1_81921256.start (ix3 b n o) keptNodes 2 = 0 := by
      unfold GatherDims.start
      rw [dif_neg (show (2 : Fin 3) ∉ gather_S8192x12x256_S4x1_S8192x4x256_02_1_n_n_1_1_81921256.startIndexMap from by
        show (2 : Fin 3) ∉ ([1] : List (Fin 3)); decide)]
    rw [hs]
    have hk : (2 : Fin 3) ∈ gather_S8192x12x256_S4x1_S8192x4x256_02_1_n_n_1_1_81921256.sKept :=
      (GatherDims.mem_sKept _ _).mpr ⟨by show (2 : Fin 3) ∉ ([1] : List (Fin 3)); decide,
        by show (2 : Fin 3) ∉ ([] : List (Fin 3)); decide⟩
    unfold GatherDims.offCoord
    rw [dif_pos hk]
    simp only [Nat.zero_add]
    rfl

end Cert.ReferenceIdeal.RefReadDots

end
-- ==== Proof.RefReadSoftmax.lean ====
/-
  The reference's shifted exponential and labelled weights read at an index.  At batch element b and
  query node n, entry m of the shifted exponential is the exponential of score m less the largest of
  the twelve scores of that row; entry m of the labelled weights is that exponential divided by the
  sum of the row's twelve exponentials, times the label of node m.
-/
import proofs.«403429_j16930761081284_3_alg».proof.Proof.RefTerm
import proofs.«403429_j16930761081284_3_alg».proof.Proof.Spec
import Idealize.ShloMosaic.Lib.ValueIdx
import Idealize.ShloMosaic.PureOps.Ideal.Laws
import Idealize.ShloMosaic.Lib.Pipeline.Value
import Idealize.ShloMosaic.Lib.IdealHost

noncomputable section

namespace Cert.ReferenceIdeal.RefReadSoftmax

open Cert.ReferenceIdeal Cert.ReferenceIdeal.Gen Cert.ReferenceIdeal.RefTerm Idealize.ShloMosaic Idealize.ShloMosaic.ValueIdx Cert.GatSpec

/-- The index (b, n) with key coordinate k put back on the last axis is (b, n, k). -/
theorem lift_ix3 (h : S8192x12x12.Reduces [2] S8192x12) (b : Fin 8192) (n : Fin 12) (k : Fin (S8192x12x12.size 2)) :
    h.lift (ix2 b n) k = ix3 b n (⟨k.val, k.isLt⟩ : Fin 12) := by
  funext c; apply Fin.ext
  match c with
  | ⟨0, _⟩ => rfl
  | ⟨1, _⟩ => rfl
  | ⟨2, _⟩ => rfl

/-- A per-row number repeated along the key axis reads the row's number. -/
theorem alongKeys_apply (r : FVec Ideal S8192x12 .f32) (b : Fin 8192) (n m : Fin 12) :
    alongKeys (F := Ideal) r (ix3 b n m) = r (ix2 b n) := by
  unfold alongKeys
  rw [broadcastInDim_apply _ _ _ _ (ix3 b n (0 : Fin 1)) (by
    intro a
    match a with
    | ⟨0, _⟩ => rfl
    | ⟨1, _⟩ => rfl
    | ⟨2, _⟩ => rfl)]
  rw [broadcastInDim_apply _ _ _ _ (ix2 b n) (by
    intro a
    match a with
    | ⟨0, _⟩ => rfl
    | ⟨1, _⟩ => rfl)]

/-- The maximum-reduction over the key axis at (b, n) is the largest of the row's twelve scores. -/
theorem hostMax_apply (s : FVec Ideal S8192x12x12 .f32) (b : Fin 8192) (n : Fin 12) :
    Host.reduce FloatOps.maximumf s (constant (F := Ideal) S_ .f32 0xFF800000#32) reducesTo_S8192x12x12_S8192x12_d2 h_S_ (ix2 b n)
      = rowmax (fun m => s (ix3 b n m)) := by
  rw [Host.reduce_eq_fold_single FloatOps.maximumf s _ reducesTo_S8192x12x12_S8192x12_d2
    (by decide : S8192x12x12.Reduces [2] S8192x12) h_S_]
  unfold rowmax
  have hf : (s ∘ (by decide : S8192x12x12.Reduces [2] S8192x12).lift (ix2 b n)) = fun m : Fin 12 => s (ix3 b n m) :=
    funext fun k => congrArg s (lift_ix3 _ b n k)
  exact congrArg (fun f => Finset.fold max (Ideal.ofBits .f32 0xFF800000#32) f (Finset.univ : Finset (Fin 12))) hf

theorem expd_apply (s : FVec Ideal S8192x12x12 .f32) (b : Fin 8192) (n m : Fin 12) :
    RefTerm.expd (F := Ideal) s (ix3 b n m) = GatSpec.expd (fun m => s (ix3 b n m)) m := by
  unfold RefTerm.expd GatSpec.expd
  show Ideal.exp (subf s _ (ix3 b n m)) = _
  rw [subf_apply, alongKeys_apply, maximumf_apply, broadcastInDim_scalar_apply, constant_apply, hostMax_apply]
  exact congrArg (fun r => Ideal.exp (s (ix3 b n m) - r)) (max_eq_right ((Finset.le_fold_max _).mpr (Or.inl le_rfl)))

theorem weights_apply (s : FVec Ideal S8192x12x12 .f32) (label : FVec Ideal S8192x1x12 .f32) (b : Fin 8192) (n m : Fin 12) :
    weights (F := Ideal) s label (ix3 b n m) = weight (fun m => s (ix3 b n m)) (fun m => label (ix3 b (0 : Fin 1) m)) m := by
  unfold weights weight
  rw [mulf_apply, hostDivf_apply, alongKeys_apply, expd_apply, hostReduceAdd_apply,
    Ideal.hostReduceAdd_single _ (by decide : S8192x12x12.Reduces [2] S8192x12), constant_apply, Ideal.ofBits_zero_f32, zero_add]
  rw [broadcastInDim_apply _ _ label _ (ix3 b (0 : Fin 1) m) (by
    intro a
    match a with
    | ⟨0, _⟩ => rfl
    | ⟨1, _⟩ => rfl
    | ⟨2, _⟩ => rfl)]
  have hsum : (∑ k : Fin (S8192x12x12.size 2), RefTerm.expd (F := Ideal) s ((by decide : S8192x12x12.Reduces [2] S8192x12).lift (ix2 b n) k))
      = ∑ j : Fin 12, GatSpec.expd (fun m => s (ix3 b n m)) j :=
    Finset.sum_congr rfl fun k _ => by rw [lift_ix3]; exact expd_apply s b n _
  rw [hsum]

end Cert.ReferenceIdeal.RefReadSoftmax

end
-- ==== Proof.RefRead.lean ====
/-
  The reference's result is the specification's function of its arguments: the choice of the kept query
  nodes, the two output layers, the weighted sum of values, the labelled attention weights, the masked
  scores and the three dense layers with the rectifier, each read at an index.
-/
import proofs.«403429_j16930761081284_3_alg».proof.Proof.RefReadDots
import proofs.«403429_j16930761081284_3_alg».proof.Proof.RefReadSoftmax

noncomputable section

namespace Cert.ReferenceIdeal.RefRead

open Cert.ReferenceIdeal Cert.ReferenceIdeal.Gen Cert.ReferenceIdeal.RefTerm Idealize.ShloMosaic Idealize.ShloMosaic.ValueIdx Cert.GatSpec
open Cert.ReferenceIdeal.RefReadDots Cert.ReferenceIdeal.RefReadSoftmax

/-- Entry (b, n, o) of the reference's result is the output row of query node sel n of batch element b. -/
theorem refOut_eq (h : FVec Ideal S8192x12x256 .f32) (adj : FVec Ideal S12x12 .f32) (label : FVec Ideal S8192x1x12 .f32)
    (Wv : FVec Ideal S256x256 .f32) (bv : FVec Ideal S256 .f32) (Wk : FVec Ideal S256x256 .f32) (bk : FVec Ideal S256 .f32)
    (Wq : FVec Ideal S256x256 .f32) (bq : FVec Ideal S256 .f32) (Wo : FVec Ideal S256x256 .f32) (bo : FVec Ideal S256 .f32)
    (Wf : FVec Ideal S256x256 .f32) (bf : FVec Ideal S256 .f32) :
    refOut (F := Ideal) h adj label Wv bv Wk bk Wq bq Wo bo Wf bf = G h adj label Wv bv Wk bk Wq bq Wo bo Wf bf := by
  funext j
  obtain ⟨b, n, o, rfl⟩ : ∃ (b : Fin 8192) (n : Fin 4) (o : Fin 256), j = ix3 b n o := ⟨j 0, j 1, j 2, eq_ix3 j⟩
  unfold refOut G outRow
  simp only [pick_apply, lin_apply, aggregate_apply, weights_apply, scores_apply, relu_apply]
  rfl

end Cert.ReferenceIdeal.RefRead

end
-- ==== Proof.lean ====
/-
  A graph-attention layer over batches of twelve-node graphs, computed two ways.

  The kernel works on 256 batch elements per grid point.  It applies the value and key layers to all twelve
  nodes and the query layer only to the four kept query nodes 0, 3, 6, 9, masks the query-key scores with
  the adjacency rows of those nodes, normalizes their shifted exponentials, multiplies by the labels, adds up
  the twelve weighted value vectors one node at a time, and applies the two output layers.  The reference
  does the same for all twelve query nodes of every batch element with whole-array contractions and keeps
  rows 0, 3, 6, 9 at the end.

  Over the extended reals a change of float format is the identity and sums may be regrouped, so both
  results are one function of the arguments, entry by entry: the output row of query node 3 n of batch
  element b (Proof/Spec.lean).  The kernel's side is read off its generated frame run block by block
  (Proof/KerValue.lean over Proof/KerPay.lean), the reference's off its run (Proof/RefRun.lean) stage by
  stage (Proof/RefRead.lean).  No law used needs the inputs finite, so the precondition is never opened.
  The idealization rewrote nothing, so there is nothing to preserve.
-/
import proofs.«403429_j16930761081284_3_alg».proof.Defs
import proofs.«403429_j16930761081284_3_alg».proof.Proof.Gen.Kernel
import proofs.«403429_j16930761081284_3_alg».proof.Proof.Gen.Kernel.Skeleton
import proofs.«403429_j16930761081284_3_alg».proof.Proof.Gen.Kernel.Launch
import proofs.«403429_j16930761081284_3_alg».proof.Proof.Gen.Kernel.Points
import proofs.«403429_j16930761081284_3_alg».proof.Proof.Gen.Kernel.Frame
import proofs.«403429_j16930761081284_3_alg».proof.Proof.Gen.KernelIdeal
import proofs.«403429_j16930761081284_3_alg».proof.Proof.Gen.KernelIdeal.Skeleton
import proofs.«403429_j16930761081284_3_alg».proof.Proof.Gen.KernelIdeal.Launch
import proofs.«403429_j16930761081284_3_alg».proof.Proof.Gen.KernelIdeal.Points
import proofs.«403429_j16930761081284_3_alg».proof.Proof.Gen.KernelIdeal.Frame
import proofs.«403429_j16930761081284_3_alg».proof.Proof.Gen.KernelIdeal.Value
import proofs.«403429_j16930761081284_3_alg».proof.Proof.Gen.ReferenceIdeal
import proofs.«403429_j16930761081284_3_alg».proof.Proof.Gen.Pre_finite_inputs
import proofs.«403429_j16930761081284_3_alg».proof.Proof.KerValue
import proofs.«403429_j16930761081284_3_alg».proof.Proof.RefRun
import proofs.«403429_j16930761081284_3_alg».proof.Proof.RefRead
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the specification's result of the arguments they agree on. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11, a12⟩ := hagree c
  rw [a0, a1, a2, a3, a4, a5, a6, a7, a8, a9, a10, a11, a12, Cert.ReferenceIdeal.RefRead.refOut_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
